-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4x2048x4096 .f32) (main_arg1 : FVec F S4096x4096 .f32) (main_arg2 : FVec F S4096 .f32) (main_arg3 : FVec F S4096 .f32) (main_arg4 : FVec F S4096 .f32) (main_arg5 : FVec F S4096 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S2x64x4096 : Shape := ⟨3, ![2, 64, 4096]⟩
abbrev S2 : Shape := ⟨1, ![2]⟩
abbrev S1 : Shape := ⟨1, ![1]⟩
abbrev S_ : Shape := ⟨0, ![]⟩
abbrev S1x64x4096 : Shape := ⟨3, ![1, 64, 4096]⟩
abbrev S64x4096 : Shape := ⟨2, ![64, 4096]⟩
abbrev S256 : Shape := ⟨1, ![256]⟩
abbrev S256x1 : Shape := ⟨2, ![256, 1]⟩

abbrev nBuf : Space → Nat
  | .hbm => 15
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S8192x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S8192x4096, .f32⟩
  | .hbm, ⟨14, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S4096x4096, .bf16⟩
  | .local _ .vmem, ⟨10, _⟩ => ⟨S2x64x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x2048x4096_S8192x4096 : S4x2048x4096.ShapeCasts S8192x4096
  shapeCasts_S4096_S1x4096 : S4096.ShapeCasts S1x4096
  inb_S2_S1_0 : ∀ a, (![0] : Fin 1 → Nat) a + S1.size a ≤ S2.size a
  squeezes_S1_S_ : S1.Squeezes S_
  inb_S2x64x4096_S1x64x4096_0_0_0 : ∀ a, (![0, 0, 0] : Fin 3 → Nat) a + S1x64x4096.size a ≤ S2x64x4096.size a
  squeezes_S1x64x4096_S64x4096 : S1x64x4096.Squeezes S64x4096
  inb_S4096x4096_S64x4096_0_0 : ∀ a, (![0, 0] : Fin 2 → Nat) a + S64x4096.size a ≤ S4096x4096.size a
  inb_S2_S1_1 : ∀ a, (![1] : Fin 1 → Nat) a + S1.size a ≤ S2.size a
  inb_S2x64x4096_S1x64x4096_1_0_0 : ∀ a, (![1, 0, 0] : Fin 3 → Nat) a + S1x64x4096.size a ≤ S2x64x4096.size a
  inb_S4096x4096_S64x4096_64_0 : ∀ a, (![64, 0] : Fin 2 → Nat) a + S64x4096.size a ≤ S4096x4096.size a
  h_S1x64x4096 : 0 < S1x64x4096.numel
  shapeCasts_S1x64x4096_S64x4096 : S1x64x4096.ShapeCasts S64x4096
  bitsLt_bf16_f32 : FTy.bits .bf16 < FTy.bits .f32
  h_S64x4096 : 0 < S64x4096.numel
  shapeCasts_S64x4096_S64x4096 : S64x4096.ShapeCasts S64x4096
  packedbf16_S4096x4096_S64x4096_0_0 : (Rect.unit (s := S4096x4096) ![0, 0] S64x4096.size inb_S4096x4096_S64x4096_0_0).PackedRows (EltTy.packing .bf16)
  inb_S4096x4096_S64x4096_128_0 : ∀ a, (![128, 0] : Fin 2 → Nat) a + S64x4096.size a ≤ S4096x4096.size a
  packedbf16_S4096x4096_S64x4096_64_0 : (Rect.unit (s := S4096x4096) ![64, 0] S64x4096.size inb_S4096x4096_S64x4096_64_0).PackedRows (EltTy.packing .bf16)
  inb_S4096x4096_S64x4096_192_0 : ∀ a, (![192, 0] : Fin 2 → Nat) a + S64x4096.size a ≤ S4096x4096.size a
  packedbf16_S4096x4096_S64x4096_128_0 : (Rect.unit (s := S4096x4096) ![128, 0] S64x4096.size inb_S4096x4096_S64x4096_128_0).PackedRows (EltTy.packing .bf16)
  inb_S4096x4096_S64x4096_256_0 : ∀ a, (![256, 0] : Fin 2 → Nat) a + S64x4096.size a ≤ S4096x4096.size a
  packedbf16_S4096x4096_S64x4096_192_0 : (Rect.unit (s := S4096x4096) ![192, 0] S64x4096.size inb_S4096x4096_S64x4096_192_0).PackedRows (EltTy.packing .bf16)
  inb_S4096x4096_S64x4096_320_0 : ∀ a, (![320, 0] : Fin 2 → Nat) a + S64x4096.size a ≤ S4096x4096.size a
  packedbf16_S4096x4096_S64x4096_256_0 : (Rect.unit (s := S4096x4096) ![256, 0] S64x4096.size inb_S4096x4096_S64x4096_256_0).PackedRows (EltTy.packing .bf16)
  inb_S4096x4096_S64x4096_384_0 : ∀ a, (![384, 0] : Fin 2 → Nat) a + S64x4096.size a ≤ S4096x4096.size a
  packedbf16_S4096x4096_S64x4096_320_0 : (Rect.unit (s := S4096x4096) ![320, 0] S64x4096.size inb_S4096x4096_S64x4096_320_0).PackedRows (EltTy.packing .bf16)
  inb_S4096x4096_S64x4096_448_0 : ∀ a, (![448, 0] : Fin 2 → Nat) a + S64x4096.size a ≤ S4096x4096.size a
  packedbf16_S4096x4096_S64x4096_384_0 : (Rect.unit (s := S4096x4096) ![384, 0] S64x4096.size inb_S4096x4096_S64x4096_384_0).PackedRows (EltTy.packing .bf16)
  inb_S4096x4096_S64x4096_512_0 : ∀ a, (![512, 0] : Fin 2 → Nat) a + S64x4096.size a ≤ S4096x4096.size a
  packedbf16_S4096x4096_S64x4096_448_0 : (Rect.unit (s := S4096x4096) ![448, 0] S64x4096.size inb_S4096x4096_S64x4096_448_0).PackedRows (EltTy.packing .bf16)
  inb_S4096x4096_S64x4096_576_0 : ∀ a, (![576, 0] : Fin 2 → Nat) a + S64x4096.size a ≤ S4096x4096.size a
  packedbf16_S4096x4096_S64x4096_512_0 : (Rect.unit (s := S4096x4096) ![512, 0] S64x4096.size inb_S4096x4096_S64x4096_512_0).PackedRows (EltTy.packing .bf16)
  inb_S4096x4096_S64x4096_640_0 : ∀ a, (![640, 0] : Fin 2 → Nat) a + S64x4096.size a ≤ S4096x4096.size a
  packedbf16_S4096x4096_S64x4096_576_0 : (Rect.unit (s := S4096x4096) ![576, 0] S64x4096.size inb_S4096x4096_S64x4096_576_0).PackedRows (EltTy.packing .bf16)
  inb_S4096x4096_S64x4096_704_0 : ∀ a, (![704, 0] : Fin 2 → Nat) a + S64x4096.size a ≤ S4096x4096.size a
  packedbf16_S4096x4096_S64x4096_640_0 : (Rect.unit (s := S4096x4096) ![640, 0] S64x4096.size inb_S4096x4096_S64x4096_640_0).PackedRows (EltTy.packing .bf16)
  inb_S4096x4096_S64x4096_768_0 : ∀ a, (![768, 0] : Fin 2 → Nat) a + S64x4096.size a ≤ S4096x4096.size a
  packedbf16_S4096x4096_S64x4096_704_0 : (Rect.unit (s := S4096x4096) ![704, 0] S64x4096.size inb_S4096x4096_S64x4096_704_0).PackedRows (EltTy.packing .bf16)
  inb_S4096x4096_S64x4096_832_0 : ∀ a, (![832, 0] : Fin 2 → Nat) a + S64x4096.size a ≤ S4096x4096.size a
  packedbf16_S4096x4096_S64x4096_768_0 : (Rect.unit (s := S4096x4096) ![768, 0] S64x4096.size inb_S4096x4096_S64x4096_768_0).PackedRows (EltTy.packing .bf16)
  inb_S4096x4096_S64x4096_896_0 : ∀ a, (![896, 0] : Fin 2 → Nat) a + S64x4096.size a ≤ S4096x4096.size a
  packedbf16_S4096x4096_S64x4096_832_0 : (Rect.unit (s := S4096x4096) ![832, 0] S64x4096.size inb_S4096x4096_S64x4096_832_0).PackedRows (EltTy.packing .bf16)
  inb_S4096x4096_S64x4096_960_0 : ∀ a, (![960, 0] : Fin 2 → Nat) a + S64x4096.size a ≤ S4096x4096.size a
  packedbf16_S4096x4096_S64x4096_896_0 : (Rect.unit (s := S4096x4096) ![896, 0] S64x4096.size inb_S4096x4096_S64x4096_896_0).PackedRows (EltTy.packing .bf16)
  inb_S4096x4096_S64x4096_1024_0 : ∀ a, (![1024, 0] : Fin 2 → Nat) a + S64x4096.size a ≤ S4096x4096.size a
  packedbf16_S4096x4096_S64x4096_960_0 : (Rect.unit (s := S4096x4096) ![960, 0] S64x4096.size inb_S4096x4096_S64x4096_960_0).PackedRows (EltTy.packing .bf16)
  inb_S4096x4096_S64x4096_1088_0 : ∀ a, (![1088, 0] : Fin 2 → Nat) a + S64x4096.size a ≤ S4096x4096.size a
  packedbf16_S4096x4096_S64x4096_1024_0 : (Rect.unit (s := S4096x4096) ![1024, 0] S64x4096.size inb_S4096x4096_S64x4096_1024_0).PackedRows (EltTy.packing .bf16)
  inb_S4096x4096_S64x4096_1152_0 : ∀ a, (![1152, 0] : Fin 2 → Nat) a + S64x4096.size a ≤ S4096x4096.size a
  packedbf16_S4096x4096_S64x4096_1088_0 : (Rect.unit (s := S4096x4096) ![1088, 0] S64x4096.size inb_S4096x4096_S64x4096_1088_0).PackedRows (EltTy.packing .bf16)
  inb_S4096x4096_S64x4096_1216_0 : ∀ a, (![1216, 0] : Fin 2 → Nat) a + S64x4096.size a ≤ S4096x4096.size a
  packedbf16_S4096x4096_S64x4096_1152_0 : (Rect.unit (s := S4096x4096) ![1152, 0] S64x4096.size inb_S4096x4096_S64x4096_1152_0).PackedRows (EltTy.packing .bf16)
  inb_S4096x4096_S64x4096_1280_0 : ∀ a, (![1280, 0] : Fin 2 → Nat) a + S64x4096.size a ≤ S4096x4096.size a
  packedbf16_S4096x4096_S64x4096_1216_0 : (Rect.unit (s := S4096x4096) ![1216, 0] S64x4096.size inb_S4096x4096_S64x4096_1216_0).PackedRows (EltTy.packing .bf16)
  inb_S4096x4096_S64x4096_1344_0 : ∀ a, (![1344, 0] : Fin 2 → Nat) a + S64x4096.size a ≤ S4096x4096.size a
  packedbf16_S4096x4096_S64x4096_1280_0 : (Rect.unit (s := S4096x4096) ![1280, 0] S64x4096.size inb_S4096x4096_S64x4096_1280_0).PackedRows (EltTy.packing .bf16)
  inb_S4096x4096_S64x4096_1408_0 : ∀ a, (![1408, 0] : Fin 2 → Nat) a + S64x4096.size a ≤ S4096x4096.size a
  packedbf16_S4096x4096_S64x4096_1344_0 : (Rect.unit (s := S4096x4096) ![1344, 0] S64x4096.size inb_S4096x4096_S64x4096_1344_0).PackedRows (EltTy.packing .bf16)
  inb_S4096x4096_S64x4096_1472_0 : ∀ a, (![1472, 0] : Fin 2 → Nat) a + S64x4096.size a ≤ S4096x4096.size a
  packedbf16_S4096x4096_S64x4096_1408_0 : (Rect.unit (s := S4096x4096) ![1408, 0] S64x4096.size inb_S4096x4096_S64x4096_1408_0).PackedRows (EltTy.packing .bf16)
  inb_S4096x4096_S64x4096_1536_0 : ∀ a, (![1536, 0] : Fin 2 → Nat) a + S64x4096.size a ≤ S4096x4096.size a
  packedbf16_S4096x4096_S64x4096_1472_0 : (Rect.unit (s := S4096x4096) ![1472, 0] S64x4096.size inb_S4096x4096_S64x4096_1472_0).PackedRows (EltTy.packing .bf16)
  inb_S4096x4096_S64x4096_1600_0 : ∀ a, (![1600, 0] : Fin 2 → Nat) a + S64x4096.size a ≤ S4096x4096.size a
  packedbf16_S4096x4096_S64x4096_1536_0 : (Rect.unit (s := S4096x4096) ![1536, 0] S64x4096.size inb_S4096x4096_S64x4096_1536_0).PackedRows (EltTy.packing .bf16)
  inb_S4096x4096_S64x4096_1664_0 : ∀ a, (![1664, 0] : Fin 2 → Nat) a + S64x4096.size a ≤ S4096x4096.size a
  packedbf16_S4096x4096_S64x4096_1600_0 : (Rect.unit (s := S4096x4096) ![1600, 0] S64x4096.size inb_S4096x4096_S64x4096_1600_0).PackedRows (EltTy.packing .bf16)
  inb_S4096x4096_S64x4096_1728_0 : ∀ a, (![1728, 0] : Fin 2 → Nat) a + S64x4096.size a ≤ S4096x4096.size a
  packedbf16_S4096x4096_S64x4096_1664_0 : (Rect.unit (s := S4096x4096) ![1664, 0] S64x4096.size inb_S4096x4096_S64x4096_1664_0).PackedRows (EltTy.packing .bf16)
  inb_S4096x4096_S64x4096_1792_0 : ∀ a, (![1792, 0] : Fin 2 → Nat) a + S64x4096.size a ≤ S4096x4096.size a
  packedbf16_S4096x4096_S64x4096_1728_0 : (Rect.unit (s := S4096x4096) ![1728, 0] S64x4096.size inb_S4096x4096_S64x4096_1728_0).PackedRows (EltTy.packing .bf16)
  inb_S4096x4096_S64x4096_1856_0 : ∀ a, (![1856, 0] : Fin 2 → Nat) a + S64x4096.size a ≤ S4096x4096.size a
  packedbf16_S4096x4096_S64x4096_1792_0 : (Rect.unit (s := S4096x4096) ![1792, 0] S64x4096.size inb_S4096x4096_S64x4096_1792_0).PackedRows (EltTy.packing .bf16)
  inb_S4096x4096_S64x4096_1920_0 : ∀ a, (![1920, 0] : Fin 2 → Nat) a + S64x4096.size a ≤ S4096x4096.size a
  packedbf16_S4096x4096_S64x4096_1856_0 : (Rect.unit (s := S4096x4096) ![1856, 0] S64x4096.size inb_S4096x4096_S64x4096_1856_0).PackedRows (EltTy.packing .bf16)
  inb_S4096x4096_S64x4096_1984_0 : ∀ a, (![1984, 0] : Fin 2 → Nat) a + S64x4096.size a ≤ S4096x4096.size a
  packedbf16_S4096x4096_S64x4096_1920_0 : (Rect.unit (s := S4096x4096) ![1920, 0] S64x4096.size inb_S4096x4096_S64x4096_1920_0).PackedRows (EltTy.packing .bf16)
  inb_S4096x4096_S64x4096_2048_0 : ∀ a, (![2048, 0] : Fin 2 → Nat) a + S64x4096.size a ≤ S4096x4096.size a
  packedbf16_S4096x4096_S64x4096_1984_0 : (Rect.unit (s := S4096x4096) ![1984, 0] S64x4096.size inb_S4096x4096_S64x4096_1984_0).PackedRows (EltTy.packing .bf16)
  inb_S4096x4096_S64x4096_2112_0 : ∀ a, (![2112, 0] : Fin 2 → Nat) a + S64x4096.size a ≤ S4096x4096.size a
  packedbf16_S4096x4096_S64x4096_2048_0 : (Rect.unit (s := S4096x4096) ![2048, 0] S64x4096.size inb_S4096x4096_S64x4096_2048_0).PackedRows (EltTy.packing .bf16)
  inb_S4096x4096_S64x4096_2176_0 : ∀ a, (![2176, 0] : Fin 2 → Nat) a + S64x4096.size a ≤ S4096x4096.size a
  packedbf16_S4096x4096_S64x4096_2112_0 : (Rect.unit (s := S4096x4096) ![2112, 0] S64x4096.size inb_S4096x4096_S64x4096_2112_0).PackedRows (EltTy.packing .bf16)
  inb_S4096x4096_S64x4096_2240_0 : ∀ a, (![2240, 0] : Fin 2 → Nat) a + S64x4096.size a ≤ S4096x4096.size a
  packedbf16_S4096x4096_S64x4096_2176_0 : (Rect.unit (s := S4096x4096) ![2176, 0] S64x4096.size inb_S4096x4096_S64x4096_2176_0).PackedRows (EltTy.packing .bf16)
  inb_S4096x4096_S64x4096_2304_0 : ∀ a, (![2304, 0] : Fin 2 → Nat) a + S64x4096.size a ≤ S4096x4096.size a
  packedbf16_S4096x4096_S64x4096_2240_0 : (Rect.unit (s := S4096x4096) ![2240, 0] S64x4096.size inb_S4096x4096_S64x4096_2240_0).PackedRows (EltTy.packing .bf16)
  inb_S4096x4096_S64x4096_2368_0 : ∀ a, (![2368, 0] : Fin 2 → Nat) a + S64x4096.size a ≤ S4096x4096.size a
  packedbf16_S4096x4096_S64x4096_2304_0 : (Rect.unit (s := S4096x4096) ![2304, 0] S64x4096.size inb_S4096x4096_S64x4096_2304_0).PackedRows (EltTy.packing .bf16)
  inb_S4096x4096_S64x4096_2432_0 : ∀ a, (![2432, 0] : Fin 2 → Nat) a + S64x4096.size a ≤ S4096x4096.size a
  packedbf16_S4096x4096_S64x4096_2368_0 : (Rect.unit (s := S4096x4096) ![2368, 0] S64x4096.size inb_S4096x4096_S64x4096_2368_0).PackedRows (EltTy.packing .bf16)
  inb_S4096x4096_S64x4096_2496_0 : ∀ a, (![2496, 0] : Fin 2 → Nat) a + S64x4096.size a ≤ S4096x4096.size a
  packedbf16_S4096x4096_S64x4096_2432_0 : (Rect.unit (s := S4096x4096) ![2432, 0] S64x4096.size inb_S4096x4096_S64x4096_2432_0).PackedRows (EltTy.packing .bf16)
  inb_S4096x4096_S64x4096_2560_0 : ∀ a, (![2560, 0] : Fin 2 → Nat) a + S64x4096.size a ≤ S4096x4096.size a
  packedbf16_S4096x4096_S64x4096_2496_0 : (Rect.unit (s := S4096x4096) ![2496, 0] S64x4096.size inb_S4096x4096_S64x4096_2496_0).PackedRows (EltTy.packing .bf16)
  inb_S4096x4096_S64x4096_2624_0 : ∀ a, (![2624, 0] : Fin 2 → Nat) a + S64x4096.size a ≤ S4096x4096.size a
  packedbf16_S4096x4096_S64x4096_2560_0 : (Rect.unit (s := S4096x4096) ![2560, 0] S64x4096.size inb_S4096x4096_S64x4096_2560_0).PackedRows (EltTy.packing .bf16)
  inb_S4096x4096_S64x4096_2688_0 : ∀ a, (![2688, 0] : Fin 2 → Nat) a + S64x4096.size a ≤ S4096x4096.size a
  packedbf16_S4096x4096_S64x4096_2624_0 : (Rect.unit (s := S4096x4096) ![2624, 0] S64x4096.size inb_S4096x4096_S64x4096_2624_0).PackedRows (EltTy.packing .bf16)
  inb_S4096x4096_S64x4096_2752_0 : ∀ a, (![2752, 0] : Fin 2 → Nat) a + S64x4096.size a ≤ S4096x4096.size a
  packedbf16_S4096x4096_S64x4096_2688_0 : (Rect.unit (s := S4096x4096) ![2688, 0] S64x4096.size inb_S4096x4096_S64x4096_2688_0).PackedRows (EltTy.packing .bf16)
  inb_S4096x4096_S64x4096_2816_0 : ∀ a, (![2816, 0] : Fin 2 → Nat) a + S64x4096.size a ≤ S4096x4096.size a
  packedbf16_S4096x4096_S64x4096_2752_0 : (Rect.unit (s := S4096x4096) ![2752, 0] S64x4096.size inb_S4096x4096_S64x4096_2752_0).PackedRows (EltTy.packing .bf16)
  inb_S4096x4096_S64x4096_2880_0 : ∀ a, (![2880, 0] : Fin 2 → Nat) a + S64x4096.size a ≤ S4096x4096.size a
  packedbf16_S4096x4096_S64x4096_2816_0 : (Rect.unit (s := S4096x4096) ![2816, 0] S64x4096.size inb_S4096x4096_S64x4096_2816_0).PackedRows (EltTy.packing .bf16)
  inb_S4096x4096_S64x4096_2944_0 : ∀ a, (![2944, 0] : Fin 2 → Nat) a + S64x4096.size a ≤ S4096x4096.size a
  packedbf16_S4096x4096_S64x4096_2880_0 : (Rect.unit (s := S4096x4096) ![2880, 0] S64x4096.size inb_S4096x4096_S64x4096_2880_0).PackedRows (EltTy.packing .bf16)
  inb_S4096x4096_S64x4096_3008_0 : ∀ a, (![3008, 0] : Fin 2 → Nat) a + S64x4096.size a ≤ S4096x4096.size a
  packedbf16_S4096x4096_S64x4096_2944_0 : (Rect.unit (s := S4096x4096) ![2944, 0] S64x4096.size inb_S4096x4096_S64x4096_2944_0).PackedRows (EltTy.packing .bf16)
  inb_S4096x4096_S64x4096_3072_0 : ∀ a, (![3072, 0] : Fin 2 → Nat) a + S64x4096.size a ≤ S4096x4096.size a
  packedbf16_S4096x4096_S64x4096_3008_0 : (Rect.unit (s := S4096x4096) ![3008, 0] S64x4096.size inb_S4096x4096_S64x4096_3008_0).PackedRows (EltTy.packing .bf16)
  inb_S4096x4096_S64x4096_3136_0 : ∀ a, (![3136, 0] : Fin 2 → Nat) a + S64x4096.size a ≤ S4096x4096.size a
  packedbf16_S4096x4096_S64x4096_3072_0 : (Rect.unit (s := S4096x4096) ![3072, 0] S64x4096.size inb_S4096x4096_S64x4096_3072_0).PackedRows (EltTy.packing .bf16)
  inb_S4096x4096_S64x4096_3200_0 : ∀ a, (![3200, 0] : Fin 2 → Nat) a + S64x4096.size a ≤ S4096x4096.size a
  packedbf16_S4096x4096_S64x4096_3136_0 : (Rect.unit (s := S4096x4096) ![3136, 0] S64x4096.size inb_S4096x4096_S64x4096_3136_0).PackedRows (EltTy.packing .bf16)
  inb_S4096x4096_S64x4096_3264_0 : ∀ a, (![3264, 0] : Fin 2 → Nat) a + S64x4096.size a ≤ S4096x4096.size a
  packedbf16_S4096x4096_S64x4096_3200_0 : (Rect.unit (s := S4096x4096) ![3200, 0] S64x4096.size inb_S4096x4096_S64x4096_3200_0).PackedRows (EltTy.packing .bf16)
  inb_S4096x4096_S64x4096_3328_0 : ∀ a, (![3328, 0] : Fin 2 → Nat) a + S64x4096.size a ≤ S4096x4096.size a
  packedbf16_S4096x4096_S64x4096_3264_0 : (Rect.unit (s := S4096x4096) ![3264, 0] S64x4096.size inb_S4096x4096_S64x4096_3264_0).PackedRows (EltTy.packing .bf16)
  inb_S4096x4096_S64x4096_3392_0 : ∀ a, (![3392, 0] : Fin 2 → Nat) a + S64x4096.size a ≤ S4096x4096.size a
  packedbf16_S4096x4096_S64x4096_3328_0 : (Rect.unit (s := S4096x4096) ![3328, 0] S64x4096.size inb_S4096x4096_S64x4096_3328_0).PackedRows (EltTy.packing .bf16)
  inb_S4096x4096_S64x4096_3456_0 : ∀ a, (![3456, 0] : Fin 2 → Nat) a + S64x4096.size a ≤ S4096x4096.size a
  packedbf16_S4096x4096_S64x4096_3392_0 : (Rect.unit (s := S4096x4096) ![3392, 0] S64x4096.size inb_S4096x4096_S64x4096_3392_0).PackedRows (EltTy.packing .bf16)
  inb_S4096x4096_S64x4096_3520_0 : ∀ a, (![3520, 0] : Fin 2 → Nat) a + S64x4096.size a ≤ S4096x4096.size a
  packedbf16_S4096x4096_S64x4096_3456_0 : (Rect.unit (s := S4096x4096) ![3456, 0] S64x4096.size inb_S4096x4096_S64x4096_3456_0).PackedRows (EltTy.packing .bf16)
  inb_S4096x4096_S64x4096_3584_0 : ∀ a, (![3584, 0] : Fin 2 → Nat) a + S64x4096.size a ≤ S4096x4096.size a
  packedbf16_S4096x4096_S64x4096_3520_0 : (Rect.unit (s := S4096x4096) ![3520, 0] S64x4096.size inb_S4096x4096_S64x4096_3520_0).PackedRows (EltTy.packing .bf16)
  inb_S4096x4096_S64x4096_3648_0 : ∀ a, (![3648, 0] : Fin 2 → Nat) a + S64x4096.size a ≤ S4096x4096.size a
  packedbf16_S4096x4096_S64x4096_3584_0 : (Rect.unit (s := S4096x4096) ![3584, 0] S64x4096.size inb_S4096x4096_S64x4096_3584_0).PackedRows (EltTy.packing .bf16)
  inb_S4096x4096_S64x4096_3712_0 : ∀ a, (![3712, 0] : Fin 2 → Nat) a + S64x4096.size a ≤ S4096x4096.size a
  packedbf16_S4096x4096_S64x4096_3648_0 : (Rect.unit (s := S4096x4096) ![3648, 0] S64x4096.size inb_S4096x4096_S64x4096_3648_0).PackedRows (EltTy.packing .bf16)
  inb_S4096x4096_S64x4096_3776_0 : ∀ a, (![3776, 0] : Fin 2 → Nat) a + S64x4096.size a ≤ S4096x4096.size a
  packedbf16_S4096x4096_S64x4096_3712_0 : (Rect.unit (s := S4096x4096) ![3712, 0] S64x4096.size inb_S4096x4096_S64x4096_3712_0).PackedRows (EltTy.packing .bf16)
  inb_S4096x4096_S64x4096_3840_0 : ∀ a, (![3840, 0] : Fin 2 → Nat) a + S64x4096.size a ≤ S4096x4096.size a
  packedbf16_S4096x4096_S64x4096_3776_0 : (Rect.unit (s := S4096x4096) ![3776, 0] S64x4096.size inb_S4096x4096_S64x4096_3776_0).PackedRows (EltTy.packing .bf16)
  inb_S4096x4096_S64x4096_3904_0 : ∀ a, (![3904, 0] : Fin 2 → Nat) a + S64x4096.size a ≤ S4096x4096.size a
  packedbf16_S4096x4096_S64x4096_3840_0 : (Rect.unit (s := S4096x4096) ![3840, 0] S64x4096.size inb_S4096x4096_S64x4096_3840_0).PackedRows (EltTy.packing .bf16)
  inb_S4096x4096_S64x4096_3968_0 : ∀ a, (![3968, 0] : Fin 2 → Nat) a + S64x4096.size a ≤ S4096x4096.size a
  packedbf16_S4096x4096_S64x4096_3904_0 : (Rect.unit (s := S4096x4096) ![3904, 0] S64x4096.size inb_S4096x4096_S64x4096_3904_0).PackedRows (EltTy.packing .bf16)
  inb_S4096x4096_S64x4096_4032_0 : ∀ a, (![4032, 0] : Fin 2 → Nat) a + S64x4096.size a ≤ S4096x4096.size a
  packedbf16_S4096x4096_S64x4096_3968_0 : (Rect.unit (s := S4096x4096) ![3968, 0] S64x4096.size inb_S4096x4096_S64x4096_3968_0).PackedRows (EltTy.packing .bf16)
  packedbf16_S4096x4096_S64x4096_4032_0 : (Rect.unit (s := S4096x4096) ![4032, 0] S64x4096.size inb_S4096x4096_S64x4096_4032_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x4096_S4096x4096_0_0 : ∀ a, (![0, 0] : Fin 2 → Nat) a + S4096x4096.size a ≤ S4096x4096.size a
  h_S4096x4096 : 0 < S4096x4096.numel
  reduces_S256x4096_S256 : S256x4096.Reduces [1] S256
  shapeCasts_S256_S256x1 : S256.ShapeCasts S256x1
  broadcasts_S256x1_S256x4096 : S256x1.Broadcasts S256x4096
  shapeCasts_S8192x4096_S4x2048x4096 : S8192x4096.ShapeCasts S4x2048x4096
  dot_S256x4096_S4096x4096_S256x4096_1_1_0_0_n_n_wf : DotDims.WF S256x4096 S4096x4096 S256x4096 [1] [1] [0] [0] [] []
  hcc0_scratch2 : 9 + S2.numel ≤ 11
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S1x4096.size a ≤ S1x4096.size a
  hwx0_1 : ∀ i : grid0.Coords, EltTy.bits .f32 = 32 ∨ (Rect.block (s := S1x4096) S1x4096.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S1x4096.size a ≤ S1x4096.size a
  hwx0_2 : ∀ i : grid0.Coords, EltTy.bits .f32 = 32 ∨ (Rect.block (s := S1x4096) S1x4096.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S1x4096.size a ≤ S1x4096.size a
  hwx0_3 : ∀ i : grid0.Coords, EltTy.bits .f32 = 32 ∨ (Rect.block (s := S1x4096) S1x4096.size (cc0_transform_4 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_5 i = cc0_transform_5 i'
  hinb0_4 : ∀ (i : grid0.Coords) a, (cc0_transform_5 i a + 1) * S1x4096.size a ≤ S1x4096.size a
  hwx0_4 : ∀ i : grid0.Coords, EltTy.bits .f32 = 32 ∨ (Rect.block (s := S1x4096) S1x4096.size (cc0_transform_5 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_6 i = cc0_transform_6 i'
  hinb0_5 : ∀ (i : grid0.Coords) a, (cc0_transform_6 i a + 1) * S1x4096.size a ≤ S1x4096.size a
  hwx0_5 : ∀ i : grid0.Coords, EltTy.bits .f32 = 32 ∨ (Rect.block (s := S1x4096) S1x4096.size (cc0_transform_6 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_7 i = cc0_transform_7 i'
  hinb0_6 : ∀ (i : grid0.Coords) a, (cc0_transform_7 i a + 1) * S256x4096.size a ≤ S8192x4096.size a
  hwx0_6 : ∀ i : grid0.Coords, EltTy.bits .f32 = 32 ∨ (Rect.block (s := S8192x4096) S256x4096.size (cc0_transform_7 i) (hinb0_6 i)).WholeWords (EltTy.packing .f32)

variable [Facts₀]

abbrev cc0_scratch2 : DmaSems sig S2 := SemArray.consecutive 9 S2 hcc0_scratch2
def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_2 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_3 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_4 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096.size cc0_transform_5 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_6 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x4096.size cc0_transform_7 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S_ : Shape := ⟨0, ![]⟩
abbrev S1x4096 : Shape := ⟨2, ![1, 4096]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S8192x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x4096, .f32⟩
  | .hbm, ⟨43, _⟩ => ⟨S8192x4096, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x4096, .f32⟩
  | .hbm, ⟨49, _⟩ => ⟨S8192x4096, .f32⟩
  | .hbm, ⟨50, _⟩ => ⟨S1x4096, .f32⟩
  | .hbm, ⟨51, _⟩ => ⟨S8192x4096, .f32⟩
  | .hbm, ⟨52, _⟩ => ⟨S8192x4096, .f32⟩
  | .hbm, ⟨53, _⟩ => ⟨S1x4096, .f32⟩
  | .hbm, ⟨54, _⟩ => ⟨S8192x4096, .f32⟩
  | .hbm, ⟨55, _⟩ => ⟨S8192x4096, .f32⟩
  | .hbm, ⟨56, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  shapeCasts_S8192x4096_S4x2048x4096 : S8192x4096.ShapeCasts S4x2048x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.StagingLoad.lean ====
/-
  Loads from a buffer whose windows were overwritten whole.

  A buffer is held as its earlier contents overwritten, one window at a time, by whole-window
  writes (each through the window re-shaped).  A load of one window does not see a write to a
  window disjoint from it (`readAt_write_disjoint`), and after a write to the window itself it
  reads exactly what was written, whatever the buffer held before (`readAt_write_same`).  So what
  a double-buffered staging area delivers does not depend on what it held at the start.
-/
import Idealize.ShloMosaic.Lib.Pipeline.Value

noncomputable section

namespace Cert.StagingLoad

open Idealize.ShloMosaic

variable {sig : RefSig} {κ : Kind} {sp : Space} {s : Shape} {e : EltTy} {Val : EltTy → Type}

/-- A whole write through a re-shaped window `r'` is invisible to a load of a window `r` disjoint from it. -/
theorem readAt_write_disjoint (v : View sig κ sp s e) (r r' : Rect s) (hd : Disjoint r.set r'.set)
    {s' : Shape} (h : s'.numel = r'.shape.numel) (g : v.ty.Contents Val) (w : s'.Idx → Val e) :
    v.readAt Val r.toLoadRect (((v.slice r').reshape s' h).write Val g w Finset.univ)
      = v.readAt Val r.toLoadRect g := by
  apply View.readAt_congr
  intro i hi
  apply View.write_of_not_mem
  intro hm
  rw [View.setOn_univ, View.set_reshape, View.set_slice] at hm
  obtain ⟨x, hx, rfl⟩ := Finset.mem_map.mp hi
  obtain ⟨y, hy, hxy⟩ := Finset.mem_map.mp hm
  have hyx : y = x := v.emb.injective hxy
  subst hyx
  exact Finset.disjoint_left.mp hd hx hy

/-- A load of a window after a whole write through the window re-shaped reads what was written. -/
theorem readAt_write_same (v : View sig κ sp s e) (r : Rect s) {s' : Shape} (h : s'.numel = r.shape.numel)
    (g : v.ty.Contents Val) (w : s'.Idx → Val e) :
    v.readAt Val r.toLoadRect (((v.slice r).reshape s' h).write Val g w Finset.univ)
      = fun x => w ((Shape.reshapeEquiv h).symm x) := by
  funext x
  have hw := congrFun (View.read_write_univ (v := (v.slice r).reshape s' h) g w) ((Shape.reshapeEquiv h).symm x)
  rw [← hw, View.readAt_apply, View.read_apply, View.read_apply]
  simp only [View.emb_reshape, View.emb_slice, Function.Embedding.trans_apply, Equiv.coe_toEmbedding,
    Equiv.apply_symm_apply]
  rfl

/-- Two windows of the same sizes at offsets that differ on an axis by at least the size are disjoint. -/
theorem unit_disjoint {off off' size : Fin s.rank → Nat} (inb : ∀ a, off a + size a ≤ s.size a)
    (inb' : ∀ a, off' a + size a ≤ s.size a) (a : Fin s.rank) (ha : off a + size a ≤ off' a) :
    Disjoint (Rect.unit off size inb).set (Rect.unit off' size inb').set := by
  rw [Finset.disjoint_left]
  intro i hi hi'
  rw [Rect.mem_set_unit] at hi hi'
  have h1 := (hi a).2
  have h2 := (hi' a).1
  omega

end Cert.StagingLoad

end
-- ==== Proof.KernelStaging.lean ====
/-
  The staging scratch of the weight copy has two slots, each one chunk of 64 rows.  A load of a
  slot does not see a whole write to the other slot, and after a whole write to the slot itself
  it reads what was written, whatever the scratch held before.
-/
import proofs.«110152_j80350248173700_2_alg».proof.Proof.Gen.Kernel
import proofs.«110152_j80350248173700_2_alg».proof.Proof.StagingLoad

noncomputable section

namespace Cert.Kernel.Gen

open Idealize.ShloMosaic

variable {F : FTy → Type}

/-- A load of staging slot 0 does not see a whole write to slot 1. -/
theorem load0_after_write1 {κ : Kind} {sp : Space} (v : View sig κ sp S2x64x4096 .f32)
    (h : S64x4096.numel = (Rect.unit (s := S2x64x4096) ![1, 0, 0] ![1, 64, 4096] inb_S2x64x4096_S1x64x4096_1_0_0).shape.numel)
    (g : v.ty.Contents (Elt F)) (w : S64x4096.Idx → Elt F .f32) :
    v.readAt (Elt F) (Rect.unit (s := S2x64x4096) ![0, 0, 0] ![1, 64, 4096] inb_S2x64x4096_S1x64x4096_0_0_0).toLoadRect (((v.slice (Rect.unit (s := S2x64x4096) ![1, 0, 0] ![1, 64, 4096] inb_S2x64x4096_S1x64x4096_1_0_0)).reshape S64x4096 h).write (Elt F) g w Finset.univ)
      = v.readAt (Elt F) (Rect.unit (s := S2x64x4096) ![0, 0, 0] ![1, 64, 4096] inb_S2x64x4096_S1x64x4096_0_0_0).toLoadRect g :=
  Cert.StagingLoad.readAt_write_disjoint v _ _ (Cert.StagingLoad.unit_disjoint inb_S2x64x4096_S1x64x4096_0_0_0 inb_S2x64x4096_S1x64x4096_1_0_0 0 (by decide)) h g w

/-- A load of staging slot 1 does not see a whole write to slot 0. -/
theorem load1_after_write0 {κ : Kind} {sp : Space} (v : View sig κ sp S2x64x4096 .f32)
    (h : S64x4096.numel = (Rect.unit (s := S2x64x4096) ![0, 0, 0] ![1, 64, 4096] inb_S2x64x4096_S1x64x4096_0_0_0).shape.numel)
    (g : v.ty.Contents (Elt F)) (w : S64x4096.Idx → Elt F .f32) :
    v.readAt (Elt F) (Rect.unit (s := S2x64x4096) ![1, 0, 0] ![1, 64, 4096] inb_S2x64x4096_S1x64x4096_1_0_0).toLoadRect (((v.slice (Rect.unit (s := S2x64x4096) ![0, 0, 0] ![1, 64, 4096] inb_S2x64x4096_S1x64x4096_0_0_0)).reshape S64x4096 h).write (Elt F) g w Finset.univ)
      = v.readAt (Elt F) (Rect.unit (s := S2x64x4096) ![1, 0, 0] ![1, 64, 4096] inb_S2x64x4096_S1x64x4096_1_0_0).toLoadRect g :=
  Cert.StagingLoad.readAt_write_disjoint v _ _ (Cert.StagingLoad.unit_disjoint inb_S2x64x4096_S1x64x4096_0_0_0 inb_S2x64x4096_S1x64x4096_1_0_0 0 (by decide)).symm h g w

/-- A load of staging slot 0 after a whole write to it reads what was written. -/
theorem load0_after_write0 {κ : Kind} {sp : Space} (v : View sig κ sp S2x64x4096 .f32)
    (h : S64x4096.numel = (Rect.unit (s := S2x64x4096) ![0, 0, 0] ![1, 64, 4096] inb_S2x64x4096_S1x64x4096_0_0_0).shape.numel)
    (g : v.ty.Contents (Elt F)) (w : S64x4096.Idx → Elt F .f32) :
    v.readAt (Elt F) (Rect.unit (s := S2x64x4096) ![0, 0, 0] ![1, 64, 4096] inb_S2x64x4096_S1x64x4096_0_0_0).toLoadRect (((v.slice (Rect.unit (s := S2x64x4096) ![0, 0, 0] ![1, 64, 4096] inb_S2x64x4096_S1x64x4096_0_0_0)).reshape S64x4096 h).write (Elt F) g w Finset.univ)
      = fun x => w ((Shape.reshapeEquiv h).symm x) :=
  Cert.StagingLoad.readAt_write_same v _ h g w

/-- A load of staging slot 1 after a whole write to it reads what was written. -/
theorem load1_after_write1 {κ : Kind} {sp : Space} (v : View sig κ sp S2x64x4096 .f32)
    (h : S64x4096.numel = (Rect.unit (s := S2x64x4096) ![1, 0, 0] ![1, 64, 4096] inb_S2x64x4096_S1x64x4096_1_0_0).shape.numel)
    (g : v.ty.Contents (Elt F)) (w : S64x4096.Idx → Elt F .f32) :
    v.readAt (Elt F) (Rect.unit (s := S2x64x4096) ![1, 0, 0] ![1, 64, 4096] inb_S2x64x4096_S1x64x4096_1_0_0).toLoadRect (((v.slice (Rect.unit (s := S2x64x4096) ![1, 0, 0] ![1, 64, 4096] inb_S2x64x4096_S1x64x4096_1_0_0)).reshape S64x4096 h).write (Elt F) g w Finset.univ)
      = fun x => w ((Shape.reshapeEquiv h).symm x) :=
  Cert.StagingLoad.readAt_write_same v _ h g w

end Cert.Kernel.Gen

end
-- ==== Proof.KernelIdealStaging.lean ====
/-
  The staging scratch of the weight copy has two slots, each one chunk of 64 rows.  A load of a
  slot does not see a whole write to the other slot, and after a whole write to the slot itself
  it reads what was written, whatever the scratch held before.
-/
import proofs.«110152_j80350248173700_2_alg».proof.Proof.Gen.KernelIdeal
import proofs.«110152_j80350248173700_2_alg».proof.Proof.StagingLoad

noncomputable section

namespace Cert.KernelIdeal.Gen

open Idealize.ShloMosaic

variable {F : FTy → Type}

/-- A load of staging slot 0 does not see a whole write to slot 1. -/
theorem load0_after_write1 {κ : Kind} {sp : Space} (v : View sig κ sp S2x64x4096 .f32)
    (h : S64x4096.numel = (Rect.unit (s := S2x64x4096) ![1, 0, 0] ![1, 64, 4096] inb_S2x64x4096_S1x64x4096_1_0_0).shape.numel)
    (g : v.ty.Contents (Elt F)) (w : S64x4096.Idx → Elt F .f32) :
    v.readAt (Elt F) (Rect.unit (s := S2x64x4096) ![0, 0, 0] ![1, 64, 4096] inb_S2x64x4096_S1x64x4096_0_0_0).toLoadRect (((v.slice (Rect.unit (s := S2x64x4096) ![1, 0, 0] ![1, 64, 4096] inb_S2x64x4096_S1x64x4096_1_0_0)).reshape S64x4096 h).write (Elt F) g w Finset.univ)
      = v.readAt (Elt F) (Rect.unit (s := S2x64x4096) ![0, 0, 0] ![1, 64, 4096] inb_S2x64x4096_S1x64x4096_0_0_0).toLoadRect g :=
  Cert.StagingLoad.readAt_write_disjoint v _ _ (Cert.StagingLoad.unit_disjoint inb_S2x64x4096_S1x64x4096_0_0_0 inb_S2x64x4096_S1x64x4096_1_0_0 0 (by decide)) h g w

/-- A load of staging slot 1 does not see a whole write to slot 0. -/
theorem load1_after_write0 {κ : Kind} {sp : Space} (v : View sig κ sp S2x64x4096 .f32)
    (h : S64x4096.numel = (Rect.unit (s := S2x64x4096) ![0, 0, 0] ![1, 64, 4096] inb_S2x64x4096_S1x64x4096_0_0_0).shape.numel)
    (g : v.ty.Contents (Elt F)) (w : S64x4096.Idx → Elt F .f32) :
    v.readAt (Elt F) (Rect.unit (s := S2x64x4096) ![1, 0, 0] ![1, 64, 4096] inb_S2x64x4096_S1x64x4096_1_0_0).toLoadRect (((v.slice (Rect.unit (s := S2x64x4096) ![0, 0, 0] ![1, 64, 4096] inb_S2x64x4096_S1x64x4096_0_0_0)).reshape S64x4096 h).write (Elt F) g w Finset.univ)
      = v.readAt (Elt F) (Rect.unit (s := S2x64x4096) ![1, 0, 0] ![1, 64, 4096] inb_S2x64x4096_S1x64x4096_1_0_0).toLoadRect g :=
  Cert.StagingLoad.readAt_write_disjoint v _ _ (Cert.StagingLoad.unit_disjoint inb_S2x64x4096_S1x64x4096_0_0_0 inb_S2x64x4096_S1x64x4096_1_0_0 0 (by decide)).symm h g w

/-- A load of staging slot 0 after a whole write to it reads what was written. -/
theorem load0_after_write0 {κ : Kind} {sp : Space} (v : View sig κ sp S2x64x4096 .f32)
    (h : S64x4096.numel = (Rect.unit (s := S2x64x4096) ![0, 0, 0] ![1, 64, 4096] inb_S2x64x4096_S1x64x4096_0_0_0).shape.numel)
    (g : v.ty.Contents (Elt F)) (w : S64x4096.Idx → Elt F .f32) :
    v.readAt (Elt F) (Rect.unit (s := S2x64x4096) ![0, 0, 0] ![1, 64, 4096] inb_S2x64x4096_S1x64x4096_0_0_0).toLoadRect (((v.slice (Rect.unit (s := S2x64x4096) ![0, 0, 0] ![1, 64, 4096] inb_S2x64x4096_S1x64x4096_0_0_0)).reshape S64x4096 h).write (Elt F) g w Finset.univ)
      = fun x => w ((Shape.reshapeEquiv h).symm x) :=
  Cert.StagingLoad.readAt_write_same v _ h g w

/-- A load of staging slot 1 after a whole write to it reads what was written. -/
theorem load1_after_write1 {κ : Kind} {sp : Space} (v : View sig κ sp S2x64x4096 .f32)
    (h : S64x4096.numel = (Rect.unit (s := S2x64x4096) ![1, 0, 0] ![1, 64, 4096] inb_S2x64x4096_S1x64x4096_1_0_0).shape.numel)
    (g : v.ty.Contents (Elt F)) (w : S64x4096.Idx → Elt F .f32) :
    v.readAt (Elt F) (Rect.unit (s := S2x64x4096) ![1, 0, 0] ![1, 64, 4096] inb_S2x64x4096_S1x64x4096_1_0_0).toLoadRect (((v.slice (Rect.unit (s := S2x64x4096) ![1, 0, 0] ![1, 64, 4096] inb_S2x64x4096_S1x64x4096_1_0_0)).reshape S64x4096 h).write (Elt F) g w Finset.univ)
      = fun x => w ((Shape.reshapeEquiv h).symm x) :=
  Cert.StagingLoad.readAt_write_same v _ h g w

end Cert.KernelIdeal.Gen

end
-- ==== Proof.Spec.lean ====
/-
  The function both programs compute, entry by entry, over the extended reals.

  A row `n` of the flattened activations `X` (8192 rows of 4096 channels) is scaled channel by
  channel by `sin`, multiplied into the SIGN matrix of the weights (`sgn w = +1` for `0 ≤ w`,
  `-1` otherwise, so `sgn 0 = +1`), scaled by `sout` and shifted by `b`:

      H n o = (∑ d, (X n d · sin d) · sgn (W o d)) · sout o + b o .

  The row is then normalised: with `μ n = (∑ o, H n o) / 4096` and
  `σ² n = (∑ o, (H n o - μ n)²) / 4096` the result is

      (H n o - μ n) ⋆ (σ² n + ε) · g o + β o ,

  where `a ⋆ v` is `a · rsqrt v` on one side (`normMul`) and `a / sqrt v` on the other
  (`normDiv`). The two agree wherever `v` is a positive real, which is the case when the
  activations, the two scales and the bias are finite: then every `H n o` is a real number, so
  `σ² n` is a nonnegative real, and `ε` is a positive one (the module NormLaw proves this).
-/
import Idealize.ShloMosaic.PureOps.Ideal
import Idealize.ShloMosaic.PureOps.Ideal.Laws
import Idealize.ShloMosaic.Lib.ValueIdx

noncomputable section

open scoped BigOperators

namespace Cert.SignLinearNorm

open Idealize.ShloMosaic Idealize.ShloMosaic.ValueIdx

/-- The flattened activations and the result: 8192 rows of 4096 channels. -/
abbrev Rows : Shape := ⟨2, ![8192, 4096]⟩
/-- The weights: 4096 output channels by 4096 input channels. -/
abbrev Wts : Shape := ⟨2, ![4096, 4096]⟩
/-- A per-channel vector. -/
abbrev Chan : Shape := ⟨1, ![4096]⟩

/-- The words the programs spell. -/
abbrev zeroW : EReal := Ideal.ofBits .f32 0x00000000#32
abbrev oneW : EReal := Ideal.ofBits .f32 0x3F800000#32
abbrev negOneW : EReal := Ideal.ofBits .f32 0xBF800000#32
abbrev widthW : EReal := Ideal.ofBits .f32 0x45800000#32
abbrev epsW : EReal := Ideal.ofBits .f32 0x3727C5AC#32

/-- The sign of a weight, with the sign of zero `+1`: `+1` where `0 ≤ w`, `-1` elsewhere. -/
def sgn (w : EReal) : EReal := Scalar.select (Ideal.cmp .oge w zeroW) oneW negOneW

/-- The affine layer's entry `H n o`. -/
def lin (X : Rows.Idx → EReal) (W : Wts.Idx → EReal) (sin sout b : Chan.Idx → EReal)
    (n : Fin 8192) (o : Fin 4096) : EReal :=
  (∑ d : Fin 4096, (X (ix2 n d) * sin (ix1 d)) * sgn (W (ix2 o d))) * sout (ix1 o) + b (ix1 o)

/-- The mean of a row. -/
def mean (H : Fin 8192 → Fin 4096 → EReal) (n : Fin 8192) : EReal :=
  Ideal.div (∑ o : Fin 4096, H n o) widthW

/-- The (biased) variance of a row. -/
def var (H : Fin 8192 → Fin 4096 → EReal) (n : Fin 8192) : EReal :=
  Ideal.div (∑ o : Fin 4096, (H n o - mean H n) * (H n o - mean H n)) widthW

/-- Normalising by the PRODUCT with the reciprocal square root. -/
def normMul (a v : EReal) : EReal := a * Ideal.rsqrt v
/-- Normalising by the QUOTIENT by the square root. -/
def normDiv (a v : EReal) : EReal := Ideal.div a (Ideal.sqrt v)

/-- The normalised, scaled and shifted entry, with the normalisation `nrm` left open. -/
def normed (nrm : EReal → EReal → EReal) (H : Fin 8192 → Fin 4096 → EReal) (g β : Chan.Idx → EReal)
    (n : Fin 8192) (o : Fin 4096) : EReal :=
  nrm (H n o - mean H n) (var H n + epsW) * g (ix1 o) + β (ix1 o)

/-- The whole result array, the normalisation left open. -/
def out (nrm : EReal → EReal → EReal) (X : Rows.Idx → EReal) (W : Wts.Idx → EReal)
    (sin sout b g β : Chan.Idx → EReal) : Rows.Idx → EReal :=
  fun j => normed nrm (lin X W sin sout b) g β (j 0) (j 1)

theorem out_apply (nrm : EReal → EReal → EReal) (X : Rows.Idx → EReal) (W : Wts.Idx → EReal)
    (sin sout b g β : Chan.Idx → EReal) (n : Fin 8192) (o : Fin 4096) :
    out nrm X W sin sout b g β (ix2 n o) = normed nrm (lin X W sin sout b) g β n o := rfl

end Cert.SignLinearNorm

end
-- ==== Proof.KSign.lean ====
/-
  One 64-row chunk of the sign matrix.

  For each of its 64 chunks of weight rows the body compares the chunk with zero, selects `+1.0`
  where `0 ≤ w` and `-1.0` elsewhere, and narrows the result to half precision (the identity on
  the values).  Entry `(r, d)` of what it stores for a chunk `v` is therefore the sign of `v` at
  `(0, r, d)`.  The body spells this computation in four ways (whole, or cut after the
  comparison, after the narrowing, or with its two constants passed in); all are the same term.
-/
import proofs.«110152_j80350248173700_2_alg».proof.Proof.Gen.KernelIdeal.Skeleton
import proofs.«110152_j80350248173700_2_alg».proof.Proof.Spec
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Cert.SignLinearNorm
open Idealize.ShloMosaic Idealize.ShloMosaic.ValueIdx

/-- The sign matrix of the weights `W`, as the half-precision scratch holds it. -/
def signArr (W : S4096x4096.Idx → EReal) : Vec Ideal S4096x4096 .bf16 := fun j => sgn (W j)

/-- A stored chunk at `(r, d)` is the sign of the loaded chunk at `(0, r, d)`. -/
theorem signChunk_apply (v : Vec Ideal S1x64x4096 .f32) (r : Fin 64) (d : Fin 4096) :
    k0_pay2 (F := Ideal) v (ix2 r d) = sgn (v (ix3 (0 : Fin 1) r d)) := by
  unfold k0_pay2
  rw [shapeCast_self]
  show Scalar.select (FloatOps.cmpf .oge
      ((shapeCast S64x4096 v shapeCasts_S1x64x4096_S64x4096 : S64x4096.Idx → EReal) (ix2 r d))
      (Scalar.ofBits (F := Ideal) .f32 0x00000000#32))
      (Scalar.ofBits (F := Ideal) .f32 0x3F800000#32) (Scalar.ofBits (F := Ideal) .f32 0xBF800000#32) = _
  rw [shapeCast_1ab_ab_apply]
  rfl

/-- The same computation cut after the comparison, its two constants made apart. -/
theorem signChunk_cut_cmp (v : Vec Ideal S1x64x4096 .f32) :
    k0_pay8 (F := Ideal) (k0_pay5 (F := Ideal) v) (k0_pay6 (F := Ideal)) (k0_pay7 (F := Ideal)) = k0_pay2 (F := Ideal) v := rfl

/-- The same computation cut after the narrowing. -/
theorem signChunk_cut_trunc (v : Vec Ideal S1x64x4096 .f32) :
    k0_pay13 (F := Ideal) (k0_pay12 (F := Ideal) v) = k0_pay2 (F := Ideal) v := rfl

/-- The same computation cut after the comparison. -/
theorem signChunk_cut_cmp' (v : Vec Ideal S1x64x4096 .f32) :
    k0_pay21 (F := Ideal) (k0_pay20 (F := Ideal) v) = k0_pay2 (F := Ideal) v := rfl

end Cert.KernelIdeal.KValue

end
-- ==== Proof.KPieces.lean ====
/-
  What one run of the body leaves behind.

  At a point that rebuilds the sign matrix (the first point of each core's sequence) the body
  copies the weights chunk by chunk, 64 rows at a time, through a two-slot staging buffer, stores
  each chunk's signs into its rows of the scratch matrix, and then computes the output block
  from the whole scratch matrix: the scratch ends holding the sign matrix of the weights
  (`scratch_pieces`) and the output block is the stored value over that matrix (`block_pieces_rebuilt`).
  At every other point the scratch is left as the point before left it and the output block is
  the stored value over it (`block_pieces_carried`).
-/
import proofs.«110152_j80350248173700_2_alg».proof.Proof.KernelIdealRunB
import proofs.«110152_j80350248173700_2_alg».proof.Proof.KSign
import Idealize.ShloMosaic.Lib.Pipeline.Value
import Idealize.ShloMosaic.Lib.ValueLayout
import Idealize.ShloMosaic.Lib.Tactic

set_option maxRecDepth 16384

noncomputable section

namespace Cert.KernelIdeal.KValue

open Cert.KernelIdeal Cert.KernelIdeal.Gen Cert.SignLinearNorm
open Idealize.ShloMosaic Idealize.ShloMosaic.ValueIdx Idealize.ShloMosaic.TcCoe Idealize.SL.Sem

/-- The value the body stores into its output block, from the block of activations `x0`, the
    matrix `ws` in scratch and the five one-row operands. -/
abbrev stored (x0 : Vec Ideal S256x4096 .f32) (ws : Vec Ideal S4096x4096 .bf16)
    (x1 x2 x3 x4 x5 : Vec Ideal S1x4096 .f32) : Vec Ideal S256x4096 .f32 :=
  k0_pay1 (F := Ideal) (k0_pay87 (F := Ideal) x0 x1 ws x2 x3) x4 x5

theorem hz2 : (![0, 0] : Fin 2 → Nat) = fun _ => 0 := funext fun a => by fin_cases a <;> rfl

/-- One chunk: the sign payload of rows `off 0 …` of the weights, as the transfer delivers them, is
    the sign matrix on those rows. -/
theorem sign_piece (c : Dev nD) (fh0 : HbBuf0 (F := Ideal) c hbM0_0) {off : Fin 2 → Nat}
    (inb : ∀ a, off a + (![64, 4096] : Fin 2 → Nat) a ≤ S4096x4096.size a)
    (h : S64x4096.numel = (⟨3, ![1, 64, 4096]⟩ : Shape).numel)
    (y : (Rect.unit (s := S4096x4096) off ![64, 4096] inb).shape.Idx) :
    k0_pay2 (F := Ideal) (fun x => ReadAs.same.apply
        (View.read (Elt Ideal) ((View.whole main_arg1).slice (Rect.unit (s := S4096x4096) off ![64, 4096] inb)) fh0)
        ((Shape.reshapeEquiv h).symm x)) y
      = signArr fh0 ((Rect.unit (s := S4096x4096) off ![64, 4096] inb).emb y) := by
  obtain ⟨r, d, rfl⟩ : ∃ (r : Fin 64) (d : Fin 4096), y = ix2 r d := ⟨y 0, y 1, eq_ix2 y⟩
  refine (signChunk_apply _ r d).trans ?_
  dsimp only
  rw [show (Shape.reshapeEquiv h).symm (ix3 (0 : Fin 1) r d) = ix2 r d from
    (Equiv.symm_apply_eq _).mpr (reshapeEquiv_ix2_1ab h r d).symm]
  rfl

/-- Every piece the rebuilding run stores into the scratch is the sign matrix on the piece's rows. -/
theorem scratch_pieces_ok (c : Dev nD) (i : grid0.Coords) (arg2 : Memref sig .tc .vmem S256x4096 .f32) (harg2 : arg2.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S256x4096 .f32) (harg9 : arg9.IsWhole) (arg10 : Memref sig .tc .vmem S4096x4096 .bf16) (harg10 : arg10.IsWhole) (arg11 : Memref sig .tc .vmem S2x64x4096 .f32) (harg11 : arg11.IsWhole) (hc0 : cond0_0 i) (x0 : Vec Ideal S256x4096 .f32) (x1 : Vec Ideal S1x4096 .f32) (x2 : Vec Ideal S1x4096 .f32) (x3 : Vec Ideal S1x4096 .f32) (x4 : Vec Ideal S1x4096 .f32) (x5 : Vec Ideal S1x4096 .f32) (fh0 : HbBuf0 (F := Ideal) c hbM0_0) :
    ∀ p ∈ (kernelRun0_A c i arg2 harg2 arg4 harg4 arg5 harg5 arg6 harg6 arg7 harg7 arg8 harg8 arg9 harg9 arg10 harg10 arg11 harg11 hc0 x0 x1 x2 x3 x4 x5 fh0).2.1, ∀ x : p.1.shape.Idx, p.2 x = signArr fh0 (p.1.emb x) := by
  unfold kernelRun0_A
  dsimp only
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals (intro x; exact sign_piece c fh0 _ _ x)

/-- The 64 pieces tile the scratch. -/
theorem scratch_cover (c : Dev nD) (i : grid0.Coords) (arg2 : Memref sig .tc .vmem S256x4096 .f32) (harg2 : arg2.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S256x4096 .f32) (harg9 : arg9.IsWhole) (arg10 : Memref sig .tc .vmem S4096x4096 .bf16) (harg10 : arg10.IsWhole) (arg11 : Memref sig .tc .vmem S2x64x4096 .f32) (harg11 : arg11.IsWhole) (hc0 : cond0_0 i) (x0 : Vec Ideal S256x4096 .f32) (x1 : Vec Ideal S1x4096 .f32) (x2 : Vec Ideal S1x4096 .f32) (x3 : Vec Ideal S1x4096 .f32) (x4 : Vec Ideal S1x4096 .f32) (x5 : Vec Ideal S1x4096 .f32) (fh0 : HbBuf0 (F := Ideal) c hbM0_0) (y : S4096x4096.Idx) :
    ∃ pc ∈ (kernelRun0_A c i arg2 harg2 arg4 harg4 arg5 harg5 arg6 harg6 arg7 harg7 arg8 harg8 arg9 harg9 arg10 harg10 arg11 harg11 hc0 x0 x1 x2 x3 x4 x5 fh0).2.1, y ∈ pc.1.set :=
  View.cover_of_tiledL (kernelRun0_A c i arg2 harg2 arg4 harg4 arg5 harg5 arg6 harg6 arg7 harg7 arg8 harg8 arg9 harg9 arg10 harg10 arg11 harg11 hc0 x0 x1 x2 x3 x4 x5 fh0).2.1 S64x4096.size (by sl_kernel_rfl) y

/-- A point that rebuilds the scratch leaves the sign matrix of the weights in it. -/
theorem scratch_pieces (c : Dev nD) (i : grid0.Coords) (arg2 : Memref sig .tc .vmem S256x4096 .f32) (harg2 : arg2.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S256x4096 .f32) (harg9 : arg9.IsWhole) (arg10 : Memref sig .tc .vmem S4096x4096 .bf16) (harg10 : arg10.IsWhole) (arg11 : Memref sig .tc .vmem S2x64x4096 .f32) (harg11 : arg11.IsWhole) (hc0 : cond0_0 i) (x0 : Vec Ideal S256x4096 .f32) (x1 : Vec Ideal S1x4096 .f32) (x2 : Vec Ideal S1x4096 .f32) (x3 : Vec Ideal S1x4096 .f32) (x4 : Vec Ideal S1x4096 .f32) (x5 : Vec Ideal S1x4096 .f32) (fh0 : HbBuf0 (F := Ideal) c hbM0_0) :
    VS0_0.read (Elt Ideal) (VS0_0.writes (Elt Ideal) VS0_0.junk (kernelRun0_A c i arg2 harg2 arg4 harg4 arg5 harg5 arg6 harg6 arg7 harg7 arg8 harg8 arg9 harg9 arg10 harg10 arg11 harg11 hc0 x0 x1 x2 x3 x4 x5 fh0).2.1) = signArr fh0 := by
  rw [View.read_writes_eq_canon _ _ _ (scratch_cover c i arg2 harg2 arg4 harg4 arg5 harg5 arg6 harg6 arg7 harg7 arg8 harg8 arg9 harg9 arg10 harg10 arg11 harg11 hc0 x0 x1 x2 x3 x4 x5 fh0)]
  funext y
  exact View.canon_apply_of_pieces (signArr fh0) _ (scratch_pieces_ok c i arg2 harg2 arg4 harg4 arg5 harg5 arg6 harg6 arg7 harg7 arg8 harg8 arg9 harg9 arg10 harg10 arg11 harg11 hc0 x0 x1 x2 x3 x4 x5 fh0) y
    (scratch_cover c i arg2 harg2 arg4 harg4 arg5 harg5 arg6 harg6 arg7 harg7 arg8 harg8 arg9 harg9 arg10 harg10 arg11 harg11 hc0 x0 x1 x2 x3 x4 x5 fh0 y)

/-- Its output block: the stored value over the sign matrix. -/
theorem block_pieces_rebuilt (c : Dev nD) (i : grid0.Coords) (arg2 : Memref sig .tc .vmem S256x4096 .f32) (harg2 : arg2.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S256x4096 .f32) (harg9 : arg9.IsWhole) (arg10 : Memref sig .tc .vmem S4096x4096 .bf16) (harg10 : arg10.IsWhole) (arg11 : Memref sig .tc .vmem S2x64x4096 .f32) (harg11 : arg11.IsWhole) (hc0 : cond0_0 i) (x0 : Vec Ideal S256x4096 .f32) (x1 : Vec Ideal S1x4096 .f32) (x2 : Vec Ideal S1x4096 .f32) (x3 : Vec Ideal S1x4096 .f32) (x4 : Vec Ideal S1x4096 .f32) (x5 : Vec Ideal S1x4096 .f32) (fh0 : HbBuf0 (F := Ideal) c hbM0_0) :
    VO0_6.read (Elt Ideal) (VO0_6.writes (Elt Ideal) VO0_6.junk (kernelRun0_A c i arg2 harg2 arg4 harg4 arg5 harg5 arg6 harg6 arg7 harg7 arg8 harg8 arg9 harg9 arg10 harg10 arg11 harg11 hc0 x0 x1 x2 x3 x4 x5 fh0).1) = stored x0 (signArr fh0) x1 x2 x3 x4 x5 := by
  have hcov : ∀ y : S256x4096.Idx, ∃ pc ∈ (kernelRun0_A c i arg2 harg2 arg4 harg4 arg5 harg5 arg6 harg6 arg7 harg7 arg8 harg8 arg9 harg9 arg10 harg10 arg11 harg11 hc0 x0 x1 x2 x3 x4 x5 fh0).1, y ∈ pc.1.set :=
    fun y => View.cover_of_tiledL (kernelRun0_A c i arg2 harg2 arg4 harg4 arg5 harg5 arg6 harg6 arg7 harg7 arg8 harg8 arg9 harg9 arg10 harg10 arg11 harg11 hc0 x0 x1 x2 x3 x4 x5 fh0).1 S256x4096.size (by sl_kernel_rfl) y
  have hok := scratch_pieces_ok c i arg2 harg2 arg4 harg4 arg5 harg5 arg6 harg6 arg7 harg7 arg8 harg8 arg9 harg9 arg10 harg10 arg11 harg11 hc0 x0 x1 x2 x3 x4 x5 fh0
  have hsc := scratch_cover c i arg2 harg2 arg4 harg4 arg5 harg5 arg6 harg6 arg7 harg7 arg8 harg8 arg9 harg9 arg10 harg10 arg11 harg11 hc0 x0 x1 x2 x3 x4 x5 fh0
  rw [View.read_writes_eq_canon _ _ _ hcov]
  unfold kernelRun0_A at hok hsc ⊢
  dsimp only at hok hsc ⊢
  rw [View.canon_unit_zero hz2]
  simp only [View.readAt_eq_ld, harg2.read_unread, harg4.read_unread, harg5.read_unread, harg6.read_unread, harg7.read_unread,
    harg8.read_unread, View.ld_unit_zero (S := S256x4096) hz2, View.ld_unit_zero (S := S1x4096) hz2]
  refine congrArg (fun ws => stored x0 ws x1 x2 x3 x4 x5) ?_
  rw [View.readCov_eq_canon']
  funext j
  refine (View.canon_apply_of_pieces (signArr fh0) _ hok _ (hsc _)).trans ?_
  congr 1
  funext a
  apply Fin.ext
  match a with
  | ⟨0, _⟩ => show 0 + 1 * (j 0).val = (j 0).val; omega
  | ⟨1, _⟩ => show 0 + 1 * (j 1).val = (j 1).val; omega

/-- A point that carries the scratch: its output block is the stored value over what the scratch holds. -/
theorem block_pieces_carried (c : Dev nD) (i : grid0.Coords) (arg2 : Memref sig .tc .vmem S256x4096 .f32) (harg2 : arg2.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S256x4096 .f32) (harg9 : arg9.IsWhole) (arg10 : Memref sig .tc .vmem S4096x4096 .bf16) (harg10 : arg10.IsWhole) (arg11 : Memref sig .tc .vmem S2x64x4096 .f32) (harg11 : arg11.IsWhole) (hc0 : ¬cond0_0 i) (x0 : Vec Ideal S256x4096 .f32) (x1 : Vec Ideal S1x4096 .f32) (x2 : Vec Ideal S1x4096 .f32) (x3 : Vec Ideal S1x4096 .f32) (x4 : Vec Ideal S1x4096 .f32) (x5 : Vec Ideal S1x4096 .f32) (xs0 : Vec Ideal S4096x4096 .bf16) (fh0 : HbBuf0 (F := Ideal) c hbM0_0) :
    VO0_6.read (Elt Ideal) (VO0_6.writes (Elt Ideal) VO0_6.junk (kernelRun0_B c i arg2 harg2 arg4 harg4 arg5 harg5 arg6 harg6 arg7 harg7 arg8 harg8 arg9 harg9 arg10 harg10 arg11 harg11 hc0 x0 x1 x2 x3 x4 x5 xs0 fh0).1) = stored x0 xs0 x1 x2 x3 x4 x5 := by
  have hcov : ∀ y : S256x4096.Idx, ∃ pc ∈ (kernelRun0_B c i arg2 harg2 arg4 harg4 arg5 harg5 arg6 harg6 arg7 harg7 arg8 harg8 arg9 harg9 arg10 harg10 arg11 harg11 hc0 x0 x1 x2 x3 x4 x5 xs0 fh0).1, y ∈ pc.1.set :=
    fun y => View.cover_of_tiledL (kernelRun0_B c i arg2 harg2 arg4 harg4 arg5 harg5 arg6 harg6 arg7 harg7 arg8 harg8 arg9 harg9 arg10 harg10 arg11 harg11 hc0 x0 x1 x2 x3 x4 x5 xs0 fh0).1 S256x4096.size (by sl_kernel_rfl) y
  rw [View.read_writes_eq_canon _ _ _ hcov]
  unfold kernelRun0_B
  dsimp only
  sl_unfold_words
  rw [View.canon_unit_zero hz2]
  simp only [View.readAt_eq_ld, harg2.read_unread, harg4.read_unread, harg5.read_unread, harg6.read_unread, harg7.read_unread,
    harg8.read_unread, harg10.read_unread, View.ld_unit_zero (S := S256x4096) hz2, View.ld_unit_zero (S := S1x4096) hz2,
    View.ld_unit_zero (S := S4096x4096) hz2]

end Cert.KernelIdeal.KValue

end
-- ==== Proof.KHost.lean ====
/-
  What the region finds in its arrays, and what each grid point's blocks are.

  Before the region the program flattens the activations to 8192 rows and turns each per-channel
  vector into a one-row array; so the region's first array is the flattened activations and a
  one-row array at `(0, d)` is its vector at `d`.  The 32 grid points take the rows in order:
  point `t` stages rows `256 t … 256 t + 255` of the activations and writes back the same rows of
  the result; every point stages the same one-row arrays whole.
-/
import proofs.«110152_j80350248173700_2_alg».proof.Proof.Gen.KernelIdeal.Frame.Runs
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-! ## The arrays the host wrote before the region -/

/-- The region's activations are the argument flattened to rows. -/
theorem V_v0 (c : Dev nD) :
    V m c main_v0 = shapeCast S8192x4096 (m ((c : Thread nD τ).loc main_arg0)) shapeCasts_S4x2048x4096_S8192x4096 := by
  show StableHlo.after hostOps0 (fun b => m (c, b)) (Proc.devRef .tc main_v0) = _
  after_results
  rfl

/-- The input scale as a one-row array. -/
theorem V_v1 (c : Dev nD) :
    V m c main_v1 = shapeCast S1x4096 (m ((c : Thread nD τ).loc main_arg2)) shapeCasts_S4096_S1x4096 := by
  show StableHlo.after hostOps0 (fun b => m (c, b)) (Proc.devRef .tc main_v1) = _
  after_results
  rfl

/-- The output scale as a one-row array. -/
theorem V_v2 (c : Dev nD) :
    V m c main_v2 = shapeCast S1x4096 (m ((c : Thread nD τ).loc main_arg3)) shapeCasts_S4096_S1x4096 := by
  show StableHlo.after hostOps0 (fun b => m (c, b)) (Proc.devRef .tc main_v2) = _
  after_results
  rfl

/-- The bias as a one-row array. -/
theorem V_v3 (c : Dev nD) :
    V m c main_v3 = shapeCast S1x4096 (m ((c : Thread nD τ).loc main_arg4)) shapeCasts_S4096_S1x4096 := by
  show StableHlo.after hostOps0 (fun b => m (c, b)) (Proc.devRef .tc main_v3) = _
  after_results
  rfl

/-- The normalisation's scale as a one-row array. -/
theorem V_v4 (c : Dev nD) :
    V m c main_v4 = shapeCast S1x4096 (m ((c : Thread nD τ).loc main_arg5)) shapeCasts_S4096_S1x4096 := by
  show StableHlo.after hostOps0 (fun b => m (c, b)) (Proc.devRef .tc main_v4) = _
  after_results
  rfl

/-- The normalisation's shift as a one-row array. -/
theorem V_v5 (c : Dev nD) :
    V m c main_v5 = shapeCast S1x4096 (m ((c : Thread nD τ).loc main_arg6)) shapeCasts_S4096_S1x4096 := by
  show StableHlo.after hostOps0 (fun b => m (c, b)) (Proc.devRef .tc main_v5) = _
  after_results
  rfl

/-- A one-row array made from a vector reads, at `(0, d)`, the vector at `d`. -/
theorem row_apply (x : S4096.Idx → EReal) (d : Fin 4096) :
    (shapeCast S1x4096 x shapeCasts_S4096_S1x4096 : S1x4096.Idx → EReal) (ix2 (0 : Fin 1) d) = x (ix1 d) :=
  shapeCast_a_1a_apply x shapeCasts_S4096_S1x4096 0 d

/-! ## The blocks -/

/-- The printed index maps over the grid: the two row-blocked windows are at block row `t`, the
    one-row windows at their one block. -/
theorem idx_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `p` of point `t`'s block is row `256 t + p` of the array. -/
def rowOf (t : Fin cfg0.N) (p : Fin 256) : Fin 8192 :=
  ⟨256 * t.val + p.val, by have h := t.isLt; have hN : cfg0.N = 32 := N_0; have hp := p.isLt; omega⟩

/-- The block of activations at point `t`, read at `(p, d)`. -/
theorem xblk_apply (c : Dev nD) (t : Fin cfg0.N) (p : Fin 256) (d : Fin 4096) :
    (iblk m c 0 t : S256x4096.Idx → EReal) (ix2 p d) = (V m c main_v0 : S8192x4096.Idx → EReal) (ix2 (rowOf t p) d) := by
  unfold iblk
  rw [View.read_apply]
  show V m c main_v0 _ = V m c main_v0 _
  congr 1
  funext a
  apply Fin.ext
  match a with
  | ⟨0, _⟩ => show win0_0.index t 0 * 256 + 1 * p.val = 256 * t.val + p.val; rw [(idx_facts t).1]; omega
  | ⟨1, _⟩ => show win0_0.index t 1 * 4096 + 1 * d.val = d.val; rw [(idx_facts t).2.1]; omega

/-- The one-row blocks are their arrays. -/
theorem row1_apply (c : Dev nD) (t : Fin cfg0.N) (d : Fin 4096) :
    (iblk m c 1 t : S1x4096.Idx → EReal) (ix2 (0 : Fin 1) d) = (V m c main_v1 : S1x4096.Idx → EReal) (ix2 (0 : Fin 1) d) := by
  unfold iblk
  rw [View.read_apply]
  show V m c main_v1 _ = V m c main_v1 _
  congr 1
  funext a
  apply Fin.ext
  match a with
  | ⟨0, _⟩ => show win0_1.index t 0 * 1 + 1 * 0 = 0; rw [(idx_facts t).2.2.2.2.1]
  | ⟨1, _⟩ => show win0_1.index t 1 * 4096 + 1 * d.val = d.val; rw [(idx_facts t).2.2.2.2.2.1]; omega

theorem row2_apply (c : Dev nD) (t : Fin cfg0.N) (d : Fin 4096) :
    (iblk m c 2 t : S1x4096.Idx → EReal) (ix2 (0 : Fin 1) d) = (V m c main_v2 : S1x4096.Idx → EReal) (ix2 (0 : Fin 1) d) := by
  unfold iblk
  rw [View.read_apply]
  show V m c main_v2 _ = V m c main_v2 _
  congr 1
  funext a
  apply Fin.ext
  match a with
  | ⟨0, _⟩ => show win0_2.index t 0 * 1 + 1 * 0 = 0; rw [(idx_facts t).2.2.2.2.2.2.1]
  | ⟨1, _⟩ => show win0_2.index t 1 * 4096 + 1 * d.val = d.val; rw [(idx_facts t).2.2.2.2.2.2.2.1]; omega

theorem row3_apply (c : Dev nD) (t : Fin cfg0.N) (d : Fin 4096) :
    (iblk m c 3 t : S1x4096.Idx → EReal) (ix2 (0 : Fin 1) d) = (V m c main_v3 : S1x4096.Idx → EReal) (ix2 (0 : Fin 1) d) := by
  unfold iblk
  rw [View.read_apply]
  show V m c main_v3 _ = V m c main_v3 _
  congr 1
  funext a
  apply Fin.ext
  match a with
  | ⟨0, _⟩ => show win0_3.index t 0 * 1 + 1 * 0 = 0; rw [(idx_facts t).2.2.2.2.2.2.2.2.1]
  | ⟨1, _⟩ => show win0_3.index t 1 * 4096 + 1 * d.val = d.val; rw [(idx_facts t).2.2.2.2.2.2.2.2.2.1]; omega

theorem row4_apply (c : Dev nD) (t : Fin cfg0.N) (d : Fin 4096) :
    (iblk m c 4 t : S1x4096.Idx → EReal) (ix2 (0 : Fin 1) d) = (V m c main_v4 : S1x4096.Idx → EReal) (ix2 (0 : Fin 1) d) := by
  unfold iblk
  rw [View.read_apply]
  show V m c main_v4 _ = V m c main_v4 _
  congr 1
  funext a
  apply Fin.ext
  match a with
  | ⟨0, _⟩ => show win0_4.index t 0 * 1 + 1 * 0 = 0; rw [(idx_facts t).2.2.2.2.2.2.2.2.2.2.1]
  | ⟨1, _⟩ => show win0_4.index t 1 * 4096 + 1 * d.val = d.val; rw [(idx_facts t).2.2.2.2.2.2.2.2.2.2.2.1]; omega

theorem row5_apply (c : Dev nD) (t : Fin cfg0.N) (d : Fin 4096) :
    (iblk m c 5 t : S1x4096.Idx → EReal) (ix2 (0 : Fin 1) d) = (V m c main_v5 : S1x4096.Idx → EReal) (ix2 (0 : Fin 1) d) := by
  unfold iblk
  rw [View.read_apply]
  show V m c main_v5 _ = V m c main_v5 _
  congr 1
  funext a
  apply Fin.ext
  match a with
  | ⟨0, _⟩ => show win0_5.index t 0 * 1 + 1 * 0 = 0; rw [(idx_facts t).2.2.2.2.2.2.2.2.2.2.2.2.1]
  | ⟨1, _⟩ => show win0_5.index t 1 * 4096 + 1 * d.val = d.val; rw [(idx_facts t).2.2.2.2.2.2.2.2.2.2.2.2.2]; omega

/-! ## The one-row operands are the per-channel vectors -/

theorem vec1_eq (c : Dev nD) (t : Fin cfg0.N) :
    (fun d : Fin 4096 => (iblk m c 1 t : S1x4096.Idx → EReal) (ix2 (0 : Fin 1) d))
      = fun d => (m ((c : Thread nD τ).loc main_arg2) : S4096.Idx → EReal) (ix1 d) :=
  funext fun d => (row1_apply m c t d).trans (by rw [V_v1]; exact row_apply _ d)

theorem vec2_eq (c : Dev nD) (t : Fin cfg0.N) :
    (fun d : Fin 4096 => (iblk m c 2 t : S1x4096.Idx → EReal) (ix2 (0 : Fin 1) d))
      = fun d => (m ((c : Thread nD τ).loc main_arg3) : S4096.Idx → EReal) (ix1 d) :=
  funext fun d => (row2_apply m c t d).trans (by rw [V_v2]; exact row_apply _ d)

theorem vec3_eq (c : Dev nD) (t : Fin cfg0.N) :
    (fun d : Fin 4096 => (iblk m c 3 t : S1x4096.Idx → EReal) (ix2 (0 : Fin 1) d))
      = fun d => (m ((c : Thread nD τ).loc main_arg4) : S4096.Idx → EReal) (ix1 d) :=
  funext fun d => (row3_apply m c t d).trans (by rw [V_v3]; exact row_apply _ d)

theorem vec4_eq (c : Dev nD) (t : Fin cfg0.N) :
    (fun d : Fin 4096 => (iblk m c 4 t : S1x4096.Idx → EReal) (ix2 (0 : Fin 1) d))
      = fun d => (m ((c : Thread nD τ).loc main_arg5) : S4096.Idx → EReal) (ix1 d) :=
  funext fun d => (row4_apply m c t d).trans (by rw [V_v4]; exact row_apply _ d)

theorem vec5_eq (c : Dev nD) (t : Fin cfg0.N) :
    (fun d : Fin 4096 => (iblk m c 5 t : S1x4096.Idx → EReal) (ix2 (0 : Fin 1) d))
      = fun d => (m ((c : Thread nD τ).loc main_arg6) : S4096.Idx → EReal) (ix1 d) :=
  funext fun d => (row5_apply m c t d).trans (by rw [V_v5]; exact row_apply _ d)

end Cert.KernelIdeal.KValue

end
-- ==== Proof.KTail.lean ====
/-
  After the region the program folds the 8192 rows of the region's result array back into the
  [4, 2048, 4096] result: the result is that change of shape applied to whatever the region left
  in its result array.
-/
import proofs.«110152_j80350248173700_2_alg».proof.Proof.Gen.KernelIdeal.Frame.Runs
import Idealize.ShloMosaic.PureOps.Ideal
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The program's result is the region's result array folded back. -/
theorem tail_v7 (dats : (p : Fin 1) → (c : Dev nD) → Dat τ (Elt Ideal) Unit ℕ (Pipeline.UD sig nD τ) ℕ (cfgs p) c) (c : Dev nD) :
    Pipeline.afterTail₀ cfgs dats 0 (V0 m) [hostOps1] c main_v7
      = shapeCast S4x2048x4096 ((dats 0 c).arrAt 6 cfg0.N) shapeCasts_S8192x4096_S4x2048x4096 := by
  unfold Pipeline.afterTail₀
  show StableHlo.after hostOps1 _ (Proc.devRef .tc main_v7) = _
  after_results
  rw [Pipeline.withArrays_arr spec0 launch0.win.arr_inj c _ _ 6]
  rfl

end Cert.KernelIdeal.KValue

end
-- ==== Proof.SpecRow.lean ====
/-
  The result one ROW at a time, and the two ends' changes of shape.

  Row `n` of the result depends on the activations only through row `n` of them: with
  `xr d = X n d` the row of the affine layer is `linRow xr sg sin sout b`, where `sg o d` is the
  sign matrix, and the normalised row is `normedRow` of it.  `out_row` says the whole result
  array of the specification is this, row by row.  A program that works on a block of rows at a
  time computes exactly these row functions on each row of its block.

  The activations arrive as a [4, 2048, 4096] array, flattened to 8192 rows (`flat`), and the
  result leaves folded back (`unflat`); both programs apply the same two changes of shape, so
  neither is ever opened.
-/
import proofs.«110152_j80350248173700_2_alg».proof.Proof.Spec

noncomputable section

open scoped BigOperators

namespace Cert.SignLinearNorm

open Idealize.ShloMosaic Idealize.ShloMosaic.ValueIdx

/-- One row of the affine layer, from the row's activations `xr`, the sign matrix `sg`, the two
    scales and the bias. -/
def linRow (xr : Fin 4096 → EReal) (sg : Fin 4096 → Fin 4096 → EReal) (sin sout b : Fin 4096 → EReal)
    (o : Fin 4096) : EReal :=
  (∑ d : Fin 4096, (xr d * sin d) * sg o d) * sout o + b o

/-- A row's mean. -/
def meanRow (h : Fin 4096 → EReal) : EReal := Ideal.div (∑ o : Fin 4096, h o) widthW

/-- A row's (biased) variance. -/
def varRow (h : Fin 4096 → EReal) : EReal :=
  Ideal.div (∑ o : Fin 4096, (h o - meanRow h) * (h o - meanRow h)) widthW

/-- A row normalised, scaled and shifted. -/
def normedRow (nrm : EReal → EReal → EReal) (h g β : Fin 4096 → EReal) (o : Fin 4096) : EReal :=
  nrm (h o - meanRow h) (varRow h + epsW) * g o + β o

/-- The specification's result, row by row. -/
theorem out_row (nrm : EReal → EReal → EReal) (X : Rows.Idx → EReal) (W : Wts.Idx → EReal)
    (sin sout b g β : Chan.Idx → EReal) (n : Fin 8192) (o : Fin 4096) :
    out nrm X W sin sout b g β (ix2 n o)
      = normedRow nrm
          (linRow (fun d => X (ix2 n d)) (fun o d => sgn (W (ix2 o d))) (fun d => sin (ix1 d))
            (fun o => sout (ix1 o)) (fun o => b (ix1 o)))
          (fun o => g (ix1 o)) (fun o => β (ix1 o)) o := rfl

/-- The activations as they arrive. -/
abbrev Act : Shape := ⟨3, ![4, 2048, 4096]⟩

theorem act_rows : Act.ShapeCasts Rows := by decide
theorem rows_act : Rows.ShapeCasts Act := by decide

/-- The activations flattened to rows. -/
def flat (x : Act.Idx → EReal) : Rows.Idx → EReal := shapeCast Rows x act_rows
/-- The result folded back. -/
def unflat (y : Rows.Idx → EReal) : Act.Idx → EReal := shapeCast Act y rows_act

end Cert.SignLinearNorm

end
-- ==== Proof.Payload.lean ====
/-
  What the body stores in its output block, entry by entry.

  On a block of 256 rows the body scales each row's activations channel by channel, multiplies
  them into the 4096 × 4096 matrix it holds in scratch (contracting the channel axis of both),
  scales, shifts, subtracts each row's mean, multiplies by the reciprocal square root of the
  row's variance plus `ε`, scales by `g` and shifts by `β`.  Entry `(p, q)` of what it stores is
  therefore the row function `normedRow normMul (linRow …)` of row `p` of the block, at `q`.

  The body is read in two stages.  The AFFINE stage `affine` is everything up to the shifted
  product: at `(r, o)` it is `linRow` of row `r`.  The NORMALISING stage `normalised` takes any
  block `h`: its row sums, kept as a column and divided by the width, are the rows' means
  (`avgCol`), the block minus that column broadcast along the rows is the centred block
  (`centred`), the same average of the centred block's squares is the rows' variances, and the
  centred block times the reciprocal square root of the variance column plus `ε`, broadcast along
  the rows, is the normalised block.  The body's value is `normalised` of `affine`, by unfolding.
-/
import proofs.«110152_j80350248173700_2_alg».proof.Proof.Gen.KernelIdeal.Skeleton
import proofs.«110152_j80350248173700_2_alg».proof.Proof.Spec
import proofs.«110152_j80350248173700_2_alg».proof.Proof.SpecRow
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.SignLinearNorm
open Idealize.ShloMosaic Idealize.ShloMosaic.ValueIdx

/-! ## The layout operations of a row reduction kept as a column -/

/-- A length-`a` vector viewed as an `a × 1` column reads, at `(i, u)`, the vector at `i`:
    both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along the rows to `a × b` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `a × b` array of extended reals, read at row `r`, is the sum of
    the row's `b` entries: the source index over `r` with `o` inserted on the summed axis is `(r, o)`. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r)
      = ∑ o : Fin b, src (ix2 r o) := by
  refine (Ideal.multiReduction_add_single src 0x00000000#32 h hφ hacc (ix1 r)).trans ?_
  refine Finset.sum_congr rfl fun o _ => congrArg src ?_
  funext c
  match c with
  | ⟨0, _⟩ => rfl
  | ⟨1, _⟩ => rfl

/-! ## The matrix product read at an index

The product contracts axis 1 of both operands: the left operand's index at output `(r, o)` and
contraction position `k` is `(r, k)`, the right operand's `(o, k)`. -/

theorem lhs_dot_0 (i : S256x4096.Idx) (q : dot_S256x4096_S4096x4096_S256x4096_1_1_0_0_n_n.contr.Idx) :
    (dot_S256x4096_S4096x4096_S256x4096_1_1_0_0_n_n.lhsIdx i q 0).val = (i 0).val := by
  unfold DotDims.lhsIdx
  rw [dif_neg (show ¬(0 : Fin S256x4096.rank) ∈ dot_S256x4096_S4096x4096_S256x4096_1_1_0_0_n_n.lhsBatch by decide), dif_pos (show (0 : Fin S256x4096.rank) ∈ dot_S256x4096_S4096x4096_S256x4096_1_1_0_0_n_n.lhsNonContracting by decide)]
  rfl
theorem lhs_dot_1 (i : S256x4096.Idx) (q : dot_S256x4096_S4096x4096_S256x4096_1_1_0_0_n_n.contr.Idx) :
    (dot_S256x4096_S4096x4096_S256x4096_1_1_0_0_n_n.lhsIdx i q 1).val = (q ⟨0, by decide⟩).val :=
  dot_S256x4096_S4096x4096_S256x4096_1_1_0_0_n_n.lhsIdx_val_of_single rfl i q
theorem rhs_dot_0 (i : S256x4096.Idx) (q : dot_S256x4096_S4096x4096_S256x4096_1_1_0_0_n_n.contr.Idx) :
    (dot_S256x4096_S4096x4096_S256x4096_1_1_0_0_n_n.rhsIdx i q 0).val = (i 1).val := by
  unfold DotDims.rhsIdx
  rw [dif_neg (show ¬(0 : Fin S4096x4096.rank) ∈ dot_S256x4096_S4096x4096_S256x4096_1_1_0_0_n_n.rhsBatch by decide), dif_pos (show (0 : Fin S4096x4096.rank) ∈ dot_S256x4096_S4096x4096_S256x4096_1_1_0_0_n_n.rhsNonContracting by decide)]
  rfl
theorem rhs_dot_1 (i : S256x4096.Idx) (q : dot_S256x4096_S4096x4096_S256x4096_1_1_0_0_n_n.contr.Idx) :
    (dot_S256x4096_S4096x4096_S256x4096_1_1_0_0_n_n.rhsIdx i q 1).val = (q ⟨0, by decide⟩).val :=
  dot_S256x4096_S4096x4096_S256x4096_1_1_0_0_n_n.rhsIdx_val_of_single rfl i q

/-- Into the zero block, the product at `(r, o)` is the sum over the channel `d` of the left operand at
    `(r, d)` times the right operand at `(o, d)`. -/
theorem matmul_dot_apply (lhs : FVec Ideal S256x4096 .bf16) (rhs : FVec Ideal S4096x4096 .bf16)
    (r : Fin 256) (o : Fin 4096) :
    matmul dot_S256x4096_S4096x4096_S256x4096_1_1_0_0_n_n none lhs rhs
        (constant (F := Ideal) S256x4096 .f32 0x00000000#32) (ix2 r o)
      = ∑ d : Fin 4096, lhs (ix2 r d) * rhs (ix2 o d) := by
  refine (Ideal.matmul_constant_zero_apply dot_S256x4096_S4096x4096_S256x4096_1_1_0_0_n_n none lhs rhs (ix2 r o)).trans ?_
  rw [← Equiv.sum_comp (ValueIdx.contrEquiv1 dot_S256x4096_S4096x4096_S256x4096_1_1_0_0_n_n 4096 rfl rfl).symm]
  refine Finset.sum_congr rfl fun k _ => ?_
  have hk := ValueIdx.contrEquiv1_symm_val dot_S256x4096_S4096x4096_S256x4096_1_1_0_0_n_n 4096 rfl rfl k
  have el : dot_S256x4096_S4096x4096_S256x4096_1_1_0_0_n_n.lhsIdx (ix2 r o) ((ValueIdx.contrEquiv1 dot_S256x4096_S4096x4096_S256x4096_1_1_0_0_n_n 4096 rfl rfl).symm k) = ix2 r k := funext fun a => Fin.ext (by
    match a with
    | ⟨0, _⟩ => exact lhs_dot_0 _ _
    | ⟨1, _⟩ => exact (lhs_dot_1 _ _).trans hk)
  have er : dot_S256x4096_S4096x4096_S256x4096_1_1_0_0_n_n.rhsIdx (ix2 r o) ((ValueIdx.contrEquiv1 dot_S256x4096_S4096x4096_S256x4096_1_1_0_0_n_n 4096 rfl rfl).symm k) = ix2 o k := funext fun a => Fin.ext (by
    match a with
    | ⟨0, _⟩ => exact rhs_dot_0 _ _
    | ⟨1, _⟩ => exact (rhs_dot_1 _ _).trans hk)
  rw [el, er]

/-! ## The affine stage -/

/-- The body up to the shifted product: the block scaled channel by channel by the row `x1`, multiplied
    into the matrix `ws`, scaled by the row `x2` and shifted by the row `x3`. -/
def affine (x0 : FVec Ideal S256x4096 .f32) (x1 : FVec Ideal S1x4096 .f32) (ws : FVec Ideal S4096x4096 .bf16)
    (x2 x3 : FVec Ideal S1x4096 .f32) : FVec Ideal S256x4096 .f32 :=
  addf
    (mulf
      (matmul dot_S256x4096_S4096x4096_S256x4096_1_1_0_0_n_n none
        (truncf .bf16
          (mulf (shapeCast S256x4096 x0 Facts₀.shapeCasts_S256x4096_S256x4096)
            (broadcastTo S256x4096 (shapeCast S1x4096 x1 Facts₀.shapeCasts_S1x4096_S1x4096)
              Facts₀.broadcasts_S1x4096_S256x4096))
          Facts₀.bitsLt_bf16_f32)
        ws (constant (F := Ideal) S256x4096 .f32 0x00000000#32))
      (broadcastTo S256x4096 (shapeCast S1x4096 x2 Facts₀.shapeCasts_S1x4096_S1x4096)
        Facts₀.broadcasts_S1x4096_S256x4096))
    (broadcastTo S256x4096 (shapeCast S1x4096 x3 Facts₀.shapeCasts_S1x4096_S1x4096)
      Facts₀.broadcasts_S1x4096_S256x4096)

/-- A one-row operand, cast to its own shape and broadcast over the block's rows, reads its entry in
    the column. -/
theorem rowOperand_apply (x : FVec Ideal S1x4096 .f32) (r : Fin 256) (o : Fin 4096) :
    broadcastTo S256x4096 (shapeCast S1x4096 x Facts₀.shapeCasts_S1x4096_S1x4096)
        Facts₀.broadcasts_S1x4096_S256x4096 (ix2 r o) = x (ix2 (0 : Fin 1) o) := by
  refine (broadcastTo_1b_ab_apply _ _ r o).trans ?_
  rw [shapeCast_self]

/-- The affine stage at `(r, o)` is `linRow` of row `r` of the block, at `o`. -/
theorem affine_apply (x0 : FVec Ideal S256x4096 .f32) (x1 : FVec Ideal S1x4096 .f32)
    (ws : FVec Ideal S4096x4096 .bf16) (x2 x3 : FVec Ideal S1x4096 .f32) (r : Fin 256) (o : Fin 4096) :
    affine x0 x1 ws x2 x3 (ix2 r o)
      = linRow (fun d => x0 (ix2 r d)) (fun o d => ws (ix2 o d)) (fun d => x1 (ix2 (0 : Fin 1) d))
          (fun o => x2 (ix2 (0 : Fin 1) o)) (fun o => x3 (ix2 (0 : Fin 1) o)) o := by
  unfold affine linRow
  rw [addf_apply, mulf_apply, matmul_dot_apply, rowOperand_apply, rowOperand_apply]
  refine congrArg (· * x2 (ix2 (0 : Fin 1) o) + x3 (ix2 (0 : Fin 1) o)) (Finset.sum_congr rfl fun d _ => ?_)
  rw [truncf_apply, mulf_apply, rowOperand_apply, shapeCast_self]

/-! ## The normalising stage -/

/-- The row sums of a block, kept as a column, divided by the width 4096. -/
def avgCol (h : FVec Ideal S256x4096 .f32) : FVec Ideal S256x1 .f32 :=
  divf
    (shapeCast S256x1
      (multiReduction (F := Ideal) .add [1] S256 h 0x00000000#32 Facts₀.reduces_S256x4096_S256 (.inl rfl) rfl)
      Facts₀.shapeCasts_S256_S256x1)
    (broadcast S256x1 (Scalar.ofBits (F := Ideal) .f32 0x45800000#32))

/-- The block minus its rows' averages. -/
def centred (h : FVec Ideal S256x4096 .f32) : FVec Ideal S256x4096 .f32 :=
  subf h (broadcastTo S256x4096 (avgCol h) Facts₀.broadcasts_S256x1_S256x4096)

/-- The centred block times the reciprocal square root of the average of its squares plus `ε`. -/
def normalised (h : FVec Ideal S256x4096 .f32) : FVec Ideal S256x4096 .f32 :=
  mulf (centred h)
    (broadcastTo S256x4096
      (rsqrt (addf (avgCol (mulf (centred h) (centred h)))
        (broadcast S256x1 (Scalar.ofBits (F := Ideal) .f32 0x3727C5AC#32))))
      Facts₀.broadcasts_S256x1_S256x4096)

/-- The average column at row `r` is the sum of the row's entries divided by the width. -/
theorem avgCol_apply (h : FVec Ideal S256x4096 .f32) (r : Fin 256) (u : Fin 1) :
    avgCol h (ix2 r u) = Ideal.div (∑ o : Fin 4096, h (ix2 r o)) widthW := by
  show Ideal.div
      (shapeCast S256x1
        (multiReduction (F := Ideal) .add [1] S256 h 0x00000000#32 Facts₀.reduces_S256x4096_S256 (.inl rfl) rfl)
        Facts₀.shapeCasts_S256_S256x1 (ix2 r u)) widthW = _
  refine congrArg (Ideal.div · widthW) ?_
  refine (shapeCast_a_a1_apply _ _ r u).trans ?_
  exact rowSum_apply h _ _ _ r

/-- So it is the row's mean. -/
theorem avgCol_eq_meanRow (h : FVec Ideal S256x4096 .f32) (r : Fin 256) (u : Fin 1) :
    avgCol h (ix2 r u) = meanRow (fun o => h (ix2 r o)) := avgCol_apply h r u

/-- The centred block at `(p, q)` is the entry minus the mean of row `p`. -/
theorem centred_apply (h : FVec Ideal S256x4096 .f32) (p : Fin 256) (q : Fin 4096) :
    centred h (ix2 p q) = h (ix2 p q) - meanRow (fun o => h (ix2 p o)) := by
  show h (ix2 p q) - broadcastTo S256x4096 (avgCol h) Facts₀.broadcasts_S256x1_S256x4096 (ix2 p q) = _
  refine congrArg (h (ix2 p q) - ·) ?_
  exact (broadcastTo_a1_ab_apply _ _ p q).trans (avgCol_eq_meanRow h p 0)

/-- The average of the centred block's squares at row `p` is the variance of row `p`. -/
theorem avgCol_sq_eq_varRow (h : FVec Ideal S256x4096 .f32) (p : Fin 256) (u : Fin 1) :
    avgCol (mulf (centred h) (centred h)) (ix2 p u) = varRow (fun o => h (ix2 p o)) := by
  refine (avgCol_apply _ p u).trans ?_
  show _ = Ideal.div (∑ o : Fin 4096, (h (ix2 p o) - meanRow (fun o => h (ix2 p o))) * (h (ix2 p o) - meanRow (fun o => h (ix2 p o)))) widthW
  refine congrArg (Ideal.div · widthW) (Finset.sum_congr rfl fun o _ => ?_)
  show centred h (ix2 p o) * centred h (ix2 p o) = _
  rw [centred_apply]

/-- The normalised block at `(p, q)`: the centred entry normalised by the variance of row `p` plus `ε`. -/
theorem normalised_apply (h : FVec Ideal S256x4096 .f32) (p : Fin 256) (q : Fin 4096) :
    normalised h (ix2 p q)
      = normMul (h (ix2 p q) - meanRow (fun o => h (ix2 p o))) (varRow (fun o => h (ix2 p o)) + epsW) := by
  show centred h (ix2 p q)
      * broadcastTo S256x4096
          (rsqrt (addf (avgCol (mulf (centred h) (centred h)))
            (broadcast S256x1 (Scalar.ofBits (F := Ideal) .f32 0x3727C5AC#32))))
          Facts₀.broadcasts_S256x1_S256x4096 (ix2 p q)
    = (h (ix2 p q) - meanRow (fun o => h (ix2 p o))) * Ideal.rsqrt (varRow (fun o => h (ix2 p o)) + epsW)
  rw [centred_apply]
  refine congrArg ((h (ix2 p q) - meanRow (fun o => h (ix2 p o))) * ·) ?_
  refine (broadcastTo_a1_ab_apply _ _ p q).trans ?_
  show Ideal.rsqrt (avgCol (mulf (centred h) (centred h)) (ix2 p (0 : Fin 1)) + epsW) = _
  rw [avgCol_sq_eq_varRow]

/-! ## The stored block -/

/-- The body's value before the last scale and shift is the normalising stage of the affine stage. -/
theorem pay87_eq (x0 : FVec Ideal S256x4096 .f32) (x1 : FVec Ideal S1x4096 .f32)
    (ws : FVec Ideal S4096x4096 .bf16) (x2 x3 : FVec Ideal S1x4096 .f32) :
    k0_pay87 (F := Ideal) x0 x1 ws x2 x3 = normalised (affine x0 x1 ws x2 x3) := rfl

/-- The stored block at `(p, q)`: from the block of activations `x0`, the matrix `ws` held in
    scratch, and the five one-row operands (input scale, output scale, bias, `g`, `β`). -/
theorem stored_apply (x0 : Vec Ideal S256x4096 .f32) (ws : Vec Ideal S4096x4096 .bf16)
    (x1 x2 x3 x4 x5 : Vec Ideal S1x4096 .f32) (p : Fin 256) (q : Fin 4096) :
    k0_pay1 (F := Ideal) (k0_pay87 (F := Ideal) x0 x1 ws x2 x3) x4 x5 (ix2 p q)
      = normedRow normMul
          (linRow (fun d => x0 (ix2 p d)) (fun o d => ws (ix2 o d)) (fun d => x1 (ix2 (0 : Fin 1) d))
            (fun o => x2 (ix2 (0 : Fin 1) o)) (fun o => x3 (ix2 (0 : Fin 1) o)))
          (fun o => x4 (ix2 (0 : Fin 1) o)) (fun o => x5 (ix2 (0 : Fin 1) o)) q := by
  have hrow : (fun o => affine x0 x1 ws x2 x3 (ix2 p o))
      = linRow (fun d => x0 (ix2 p d)) (fun o d => ws (ix2 o d)) (fun d => x1 (ix2 (0 : Fin 1) d))
          (fun o => x2 (ix2 (0 : Fin 1) o)) (fun o => x3 (ix2 (0 : Fin 1) o)) :=
    funext fun o => affine_apply x0 x1 ws x2 x3 p o
  rw [pay87_eq]
  show normalised (affine x0 x1 ws x2 x3) (ix2 p q)
        * broadcastTo S256x4096 (shapeCast S1x4096 x4 Facts₀.shapeCasts_S1x4096_S1x4096)
            Facts₀.broadcasts_S1x4096_S256x4096 (ix2 p q)
      + broadcastTo S256x4096 (shapeCast S1x4096 x5 Facts₀.shapeCasts_S1x4096_S1x4096)
            Facts₀.broadcasts_S1x4096_S256x4096 (ix2 p q) = _
  rw [rowOperand_apply, rowOperand_apply, normalised_apply, hrow, affine_apply]
  rfl

end Cert.KernelIdeal.Payload

end
-- ==== Proof.KValue.lean ====
/-
  The kernel's result array is the specification's PRODUCT form.

  By induction on the grid point the scratch holds the sign matrix of the weights after every
  point: a point that is first in its core's sequence rebuilds it, every other point carries it
  (`scratch_eq`).  So at every point the output block is the stored value over the sign matrix
  (`block_eq`), and its entry `(p, q)` is the row function of row `256 t + p` of the flattened
  activations at `q`: point `t` writes back rows `256 t … 256 t + 255` of `out normMul`
  (`flushed_eq`).  The 32 blocks tile the 8192 rows, so the region's result array is
  `out normMul` of the flattened activations (`result_array`), the program's result is that
  folded back (`run_out`).
-/
import proofs.«110152_j80350248173700_2_alg».proof.Proof.KernelIdealFrame
import proofs.«110152_j80350248173700_2_alg».proof.Proof.KPieces
import proofs.«110152_j80350248173700_2_alg».proof.Proof.KHost
import proofs.«110152_j80350248173700_2_alg».proof.Proof.KTail
import proofs.«110152_j80350248173700_2_alg».proof.Proof.Payload
import proofs.«110152_j80350248173700_2_alg».proof.Proof.SpecRow
import Idealize.ShloMosaic.Lib.Pipeline.Value

set_option maxRecDepth 16384

noncomputable section

namespace Cert.KernelIdeal.KValue

open Cert.KernelIdeal Cert.KernelIdeal.Gen Cert.SignLinearNorm
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The weights, as launched. -/
abbrev wts (c : Dev nD) : S4096x4096.Idx → EReal := (m ((c : Thread nD τ).loc main_arg1))

/-! ## The pieces, as the frame certificate names them -/

theorem scratch_rebuilt (c : Dev nD) (i : grid0.Coords) (arg2 : Memref sig .tc .vmem S256x4096 .f32) (harg2 : arg2.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S256x4096 .f32) (harg9 : arg9.IsWhole) (arg10 : Memref sig .tc .vmem S4096x4096 .bf16) (harg10 : arg10.IsWhole) (arg11 : Memref sig .tc .vmem S2x64x4096 .f32) (harg11 : arg11.IsWhole) (hc0 : cond0_0 i) (x0 : Vec Ideal S256x4096 .f32) (x1 : Vec Ideal S1x4096 .f32) (x2 : Vec Ideal S1x4096 .f32) (x3 : Vec Ideal S1x4096 .f32) (x4 : Vec Ideal S1x4096 .f32) (x5 : Vec Ideal S1x4096 .f32) (fh0 : HbBuf0 (F := Ideal) c hbM0_0) :
    sout0_A_0 c i arg2 harg2 arg4 harg4 arg5 harg5 arg6 harg6 arg7 harg7 arg8 harg8 arg9 harg9 arg10 harg10 arg11 harg11 hc0 x0 x1 x2 x3 x4 x5 fh0 = signArr fh0 := by
  unfold sout0_A_0
  exact scratch_pieces c i arg2 harg2 arg4 harg4 arg5 harg5 arg6 harg6 arg7 harg7 arg8 harg8 arg9 harg9 arg10 harg10 arg11 harg11 hc0 x0 x1 x2 x3 x4 x5 fh0

theorem block_rebuilt (c : Dev nD) (i : grid0.Coords) (arg2 : Memref sig .tc .vmem S256x4096 .f32) (harg2 : arg2.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S256x4096 .f32) (harg9 : arg9.IsWhole) (arg10 : Memref sig .tc .vmem S4096x4096 .bf16) (harg10 : arg10.IsWhole) (arg11 : Memref sig .tc .vmem S2x64x4096 .f32) (harg11 : arg11.IsWhole) (hc0 : cond0_0 i) (x0 : Vec Ideal S256x4096 .f32) (x1 : Vec Ideal S1x4096 .f32) (x2 : Vec Ideal S1x4096 .f32) (x3 : Vec Ideal S1x4096 .f32) (x4 : Vec Ideal S1x4096 .f32) (x5 : Vec Ideal S1x4096 .f32) (fh0 : HbBuf0 (F := Ideal) c hbM0_0) :
    out0_A_6 c i arg2 harg2 arg4 harg4 arg5 harg5 arg6 harg6 arg7 harg7 arg8 harg8 arg9 harg9 arg10 harg10 arg11 harg11 hc0 x0 x1 x2 x3 x4 x5 fh0 = stored x0 (signArr fh0) x1 x2 x3 x4 x5 := by
  unfold out0_A_6
  exact block_pieces_rebuilt c i arg2 harg2 arg4 harg4 arg5 harg5 arg6 harg6 arg7 harg7 arg8 harg8 arg9 harg9 arg10 harg10 arg11 harg11 hc0 x0 x1 x2 x3 x4 x5 fh0

theorem block_carried (c : Dev nD) (i : grid0.Coords) (arg2 : Memref sig .tc .vmem S256x4096 .f32) (harg2 : arg2.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S256x4096 .f32) (harg9 : arg9.IsWhole) (arg10 : Memref sig .tc .vmem S4096x4096 .bf16) (harg10 : arg10.IsWhole) (arg11 : Memref sig .tc .vmem S2x64x4096 .f32) (harg11 : arg11.IsWhole) (hc0 : ¬cond0_0 i) (x0 : Vec Ideal S256x4096 .f32) (x1 : Vec Ideal S1x4096 .f32) (x2 : Vec Ideal S1x4096 .f32) (x3 : Vec Ideal S1x4096 .f32) (x4 : Vec Ideal S1x4096 .f32) (x5 : Vec Ideal S1x4096 .f32) (xs0 : Vec Ideal S4096x4096 .bf16) (fh0 : HbBuf0 (F := Ideal) c hbM0_0) :
    out0_B_6 c i arg2 harg2 arg4 harg4 arg5 harg5 arg6 harg6 arg7 harg7 arg8 harg8 arg9 harg9 arg10 harg10 arg11 harg11 hc0 x0 x1 x2 x3 x4 x5 xs0 fh0 = stored x0 xs0 x1 x2 x3 x4 x5 := by
  unfold out0_B_6
  exact block_pieces_carried c i arg2 harg2 arg4 harg4 arg5 harg5 arg6 harg6 arg7 harg7 arg8 harg8 arg9 harg9 arg10 harg10 arg11 harg11 hc0 x0 x1 x2 x3 x4 x5 xs0 fh0

/-! ## The scratch holds the sign matrix after every point -/

theorem scratch_eq (c : Dev nD) : ∀ (n : ℕ) (hn : n < cfg0.N), (outsAt0 m c n hn).2 = signArr (wts m c)
  | 0, hn => by
    rw [outsAt0_A m c ⟨0, hn⟩ rfl]
    dsimp only
    refine (scratch_rebuilt c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_arg1)).trans ?_
    rw [V_main_arg1 m c]
  | n + 1, hn => by
    by_cases h0 : (n + 1) % 16 = 0
    · rw [outsAt0_A m c ⟨n + 1, hn⟩ h0]
      dsimp only
      refine (scratch_rebuilt c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_arg1)).trans ?_
      rw [V_main_arg1 m c]
    · rw [outsAt0_B m c ⟨n + 1, hn⟩ h0]
      dsimp only
      unfold sout0_B_0
      exact scratch_eq c n _

/-! ## The output block at every point -/

theorem block_eq (c : Dev nD) (t : Fin cfg0.N) :
    (outsAt0 m c t.val t.isLt).1
      = stored (iblk m c 0 t) (signArr (wts m c)) (iblk m c 1 t) (iblk m c 2 t) (iblk m c 3 t) (iblk m c 4 t) (iblk m c 5 t) := by
  by_cases h0 : t.val % 16 = 0
  · rw [outsAt0_A m c t h0]
    dsimp only
    refine (block_rebuilt c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (V m c main_arg1)).trans ?_
    rw [V_main_arg1 m c]
  · rw [outsAt0_B m c t h0]
    dsimp only
    refine (block_carried c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2 (V m c main_arg1)).trans ?_
    rw [scratch_eq m c]

/-! ## What each point writes back, and the result array -/

/-- The region's result array: the product form of the specification on the flattened activations. -/
abbrev resultRows (c : Dev nD) : S8192x4096.Idx → EReal :=
  out normMul (flat (m ((c : Thread nD τ).loc main_arg0))) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The activations block at `(p, d)` is the flattened argument at row `256 t + p`. -/
theorem xrow_eq (c : Dev nD) (t : Fin cfg0.N) (p : Fin 256) :
    (fun d : Fin 4096 => (iblk m c 0 t : S256x4096.Idx → EReal) (ix2 p d))
      = fun d => flat (m ((c : Thread nD τ).loc main_arg0)) (ix2 (rowOf t p) d) :=
  funext fun d => (xblk_apply m c t p d).trans (by rw [V_v0]; rfl)

theorem flushed_eq (c : Dev nD) (t : Fin cfg0.N) (hf : (cfg0.win 6).flush t = true) :
    (dats m 0 c).flushed 6 t = ((cfg0.win 6).blk t).view.read (Elt Ideal) (resultRows m c) := by
  show (cfg0.win 6).cut (grid0.coords t) ((dats m 0 c).after 6 t) = _
  rw [after0_6, block_eq]
  funext j
  obtain ⟨p, q, rfl⟩ : ∃ (p : Fin 256) (q : Fin 4096), j = ix2 p q := ⟨j 0, j 1, eq_ix2 j⟩
  have he : ((cfg0.win 6).blk t).view.emb (ix2 p q) = (ix2 (rowOf t p) q : S8192x4096.Idx) := by
    funext a
    apply Fin.ext
    match a with
    | ⟨0, _⟩ => show win0_6.index t 0 * 256 + 1 * p.val = 256 * t.val + p.val; rw [(idx_facts t).2.2.1]; omega
    | ⟨1, _⟩ => show win0_6.index t 1 * 4096 + 1 * q.val = q.val; rw [(idx_facts t).2.2.2.1]; omega
  show stored (iblk m c 0 t) (signArr (wts m c)) (iblk m c 1 t) (iblk m c 2 t) (iblk m c 3 t) (iblk m c 4 t) (iblk m c 5 t) (ix2 p q)
    = resultRows m c (((cfg0.win 6).blk t).view.emb (ix2 p q))
  unfold resultRows stored
  rw [he, Payload.stored_apply, out_row, xrow_eq m c t p, vec1_eq m c t, vec2_eq m c t, vec3_eq m c t, vec4_eq m c t, vec5_eq m c t]
  rfl

/-- The 32 blocks of 256 rows tile the 8192 rows: the region's result array is `resultRows`. -/
theorem result_array (c : Dev nD) : (dats m 0 c).arrAt 6 cfg0.N = resultRows m c :=
  (dats m 0 c).arrAt_eq_of_cover 6 (resultRows m c) (flushed_eq m c) fun i => by
    have hi0 : (i 0).val < 8192 := (i 0).isLt
    have hi1 : (i 1).val < 4096 := (i 1).isLt
    have hN : cfg0.N = 32 := N_0
    have ht : (i 0).val / 256 < cfg0.N := by omega
    refine ⟨⟨(i 0).val / 256, ht⟩, flush0_6 _, ?_⟩
    show i ∈ ((View.whole main_v6).slice (win0_6.rect (⟨(i 0).val / 256, ht⟩ : Fin cfg0.N))).set
    rw [View.set_slice_whole, Rect.mem_set_unit]
    intro a
    match a with
    | ⟨0, _⟩ =>
      show win0_6.index (⟨(i 0).val / 256, ht⟩ : Fin cfg0.N) 0 * 256 ≤ (i 0).val
        ∧ (i 0).val < win0_6.index (⟨(i 0).val / 256, ht⟩ : Fin cfg0.N) 0 * 256 + 256
      rw [(idx_facts _).2.2.1]
      dsimp only
      omega
    | ⟨1, _⟩ =>
      show win0_6.index (⟨(i 0).val / 256, ht⟩ : Fin cfg0.N) 1 * 4096 ≤ (i 1).val
        ∧ (i 1).val < win0_6.index (⟨(i 0).val / 256, ht⟩ : Fin cfg0.N) 1 * 4096 + 4096
      rw [(idx_facts _).2.2.2.1]
      omega

/-! ## The run -/

/-- The kernel's run ends with its result at the specification's product form of its arguments,
    folded back, the arguments unchanged. -/
theorem run_out : θ_run defs (onTc (τ := τ) (main (F := Ideal))) ⟨m, fun _ => 0, ρ⟩ fun r => ∀ c : Dev nD,
      r.2.mem ((c.tc : Thread nD τ).loc main_v7)
          = unflat (out normMul (flat (m ((c.tc : Thread nD τ).loc main_arg0))) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v7 (Pipeline.mem_restRefs_of main_v7 (by decide) (by decide))).trans
        ((tail_v7 m (dats m) c).trans (by rw [result_array]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KValue

end
-- ==== Proof.RefValue.lean ====
/-
  The reference's result array is the specification's QUOTIENT form.

  The reference flattens the activations to 8192 rows, takes the sign matrix of the weights
  (`+1` where `0 ≤ w`, else `-1`), multiplies the channel-scaled rows into it, scales, shifts,
  subtracts each row's mean, divides by the square root of the row's variance plus `ε`, scales
  by `g`, shifts by `β`, and folds the rows back.  Read index by index, its 8192 × 4096 stage
  is `out normDiv` of the flattened activations (`stage_eq`), so its result is `unflat` of that
  (`result_eq`), and its run ends there (`run_out`).

  The stages are read in the order the specification names them: the sign matrix (`sign_at`),
  the channel-scaled activations (`scaled_at`), their product with the sign matrix (`dot_at`),
  the affine layer `H n o` (`affine_at`), the row sum and the mean `μ n` (`rowsum_at`,
  `mean_at`), the centred entry `H n o - μ n` (`centred_at`, `centred'_at`: the reference
  forms it twice), the sum of its squares and the variance `σ² n` (`sqsum_at`, `var_at`), and
  the root `sqrt (σ² n + ε)` (`root_at`).  Each per-channel vector spread over the rows reads
  its channel (`sin_at`, `sout_at`, `bias_at`, `gain_at`, `shift_at`).
-/
import proofs.«110152_j80350248173700_2_alg».proof.Defs
import proofs.«110152_j80350248173700_2_alg».proof.Proof.Gen.ReferenceIdeal.Run
import proofs.«110152_j80350248173700_2_alg».proof.Proof.Gen.ReferenceIdeal.Read
import proofs.«110152_j80350248173700_2_alg».proof.Proof.Spec
import proofs.«110152_j80350248173700_2_alg».proof.Proof.SpecRow
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Cert.SignLinearNorm
open Idealize.ShloMosaic Idealize.ShloMosaic.ValueIdx Idealize.ShloMosaic.TcCoe Idealize.SL.Sem

/-! ## The per-channel vectors, spread over the rows -/

/-- The input scale, spread over the rows, reads its channel. -/
theorem sin_at (x2 : (⟨S4096, .f32⟩ : BufTy).Contents (Elt Ideal)) (n : Fin 8192) (o : Fin 4096) :
    val_main_v6 (F := Ideal) x2 (ix2 n o) = x2 (ix1 o) := by
  rw [val_main_v6_apply, val_main_v5_apply]
  exact congrArg x2 (funext fun a => by match a with | ⟨0, _⟩ => rfl)

/-- The output scale, spread over the rows, reads its channel. -/
theorem sout_at (x3 : (⟨S4096, .f32⟩ : BufTy).Contents (Elt Ideal)) (n : Fin 8192) (o : Fin 4096) :
    val_main_v10 (F := Ideal) x3 (ix2 n o) = x3 (ix1 o) := by
  rw [val_main_v10_apply, val_main_v9_apply]
  exact congrArg x3 (funext fun a => by match a with | ⟨0, _⟩ => rfl)

/-- The bias, spread over the rows, reads its channel. -/
theorem bias_at (x4 : (⟨S4096, .f32⟩ : BufTy).Contents (Elt Ideal)) (n : Fin 8192) (o : Fin 4096) :
    val_main_v13 (F := Ideal) x4 (ix2 n o) = x4 (ix1 o) := by
  rw [val_main_v13_apply, val_main_v12_apply]
  exact congrArg x4 (funext fun a => by match a with | ⟨0, _⟩ => rfl)

/-- The gain `g`, spread over the rows, reads its channel. -/
theorem gain_at (x5 : (⟨S4096, .f32⟩ : BufTy).Contents (Elt Ideal)) (n : Fin 8192) (o : Fin 4096) :
    val_main_v34 (F := Ideal) x5 (ix2 n o) = x5 (ix1 o) := by
  rw [val_main_v34_apply, val_main_v33_apply]
  exact congrArg x5 (funext fun a => by match a with | ⟨0, _⟩ => rfl)

/-- The shift `β`, spread over the rows, reads its channel. -/
theorem shift_at (x6 : (⟨S4096, .f32⟩ : BufTy).Contents (Elt Ideal)) (n : Fin 8192) (o : Fin 4096) :
    val_main_v37 (F := Ideal) x6 (ix2 n o) = x6 (ix1 o) := by
  rw [val_main_v37_apply, val_main_v36_apply]
  exact congrArg x6 (funext fun a => by match a with | ⟨0, _⟩ => rfl)

/-! ## The affine layer -/

/-- The sign stage at `(o, d)` is the specification's sign of the weight there: the comparison with the
    zero word selects between the words `+1` and `-1`. -/
theorem sign_at (x1 : (⟨S4096x4096, .f32⟩ : BufTy).Contents (Elt Ideal)) (o d : Fin 4096) :
    val_main_v4 (F := Ideal) x1 (ix2 o d) = sgn (x1 (ix2 o d)) := by
  rw [val_main_v4_apply, val_main_v3_apply, val_main_v2_apply, val_main_v1_apply, val_main_call0_v0_apply,
    val_main_call0_v1_apply, val_main_cst_apply, val_main_cst_0_apply, val_main_cst_1_apply]
  rfl

/-- The flattening stage is `flat`: the same change of shape. -/
theorem flat_eq (x0 : (⟨S4x2048x4096, .f32⟩ : BufTy).Contents (Elt Ideal)) : val_main_v0 (F := Ideal) x0 = flat x0 := rfl

/-- The channel-scaled activations at `(n, d)`. -/
theorem scaled_at (x0 : (⟨S4x2048x4096, .f32⟩ : BufTy).Contents (Elt Ideal)) (x2 : (⟨S4096, .f32⟩ : BufTy).Contents (Elt Ideal)) (n : Fin 8192) (d : Fin 4096) :
    val_main_v7 (F := Ideal) x0 x2 (ix2 n d) = flat x0 (ix2 n d) * x2 (ix1 d) := by
  rw [val_main_v7_apply, sin_at, flat_eq, Ideal.mulf_def]

/-- The product with the sign matrix at `(n, o)`: the sum over the input channels `d` of the scaled
    activation at `(n, d)` times the sign at `(o, d)`. -/
theorem dot_at (x0 : (⟨S4x2048x4096, .f32⟩ : BufTy).Contents (Elt Ideal))
    (x1 : (⟨S4096x4096, .f32⟩ : BufTy).Contents (Elt Ideal)) (x2 : (⟨S4096, .f32⟩ : BufTy).Contents (Elt Ideal)) (n : Fin 8192) (o : Fin 4096) :
    val_main_v8 (F := Ideal) x0 x1 x2 (ix2 n o)
      = ∑ d : Fin 4096, (flat x0 (ix2 n d) * x2 (ix1 d)) * sgn (x1 (ix2 o d)) := by
  rw [val_main_v8_apply]
  refine Finset.sum_congr rfl fun d _ => ?_
  have el : lidx_main_v8 (ix2 n o) d = ix2 n d :=
    funext fun a => by match a with | ⟨0, _⟩ => rfl | ⟨1, _⟩ => rfl
  have er : ridx_main_v8 (ix2 n o) d = ix2 o d :=
    funext fun a => by match a with | ⟨0, _⟩ => rfl | ⟨1, _⟩ => rfl
  rw [el, er, scaled_at, sign_at]

/-- The affine stage at `(n, o)` is the specification's `H n o`. -/
theorem affine_at (x0 : (⟨S4x2048x4096, .f32⟩ : BufTy).Contents (Elt Ideal))
    (x1 : (⟨S4096x4096, .f32⟩ : BufTy).Contents (Elt Ideal))
    (x2 x3 x4 : (⟨S4096, .f32⟩ : BufTy).Contents (Elt Ideal)) (n : Fin 8192) (o : Fin 4096) :
    val_main_v14 (F := Ideal) x0 x1 x2 x3 x4 (ix2 n o) = lin (flat x0) x1 x2 x3 x4 n o := by
  rw [val_main_v14_apply, val_main_v11_apply, dot_at, sout_at, bias_at]
  rfl

/-! ## The row's mean -/

/-- The first row sum at `n`: its initial value is the zero word, so it is the sum of the row of `H`. -/
theorem rowsum_at (x0 : (⟨S4x2048x4096, .f32⟩ : BufTy).Contents (Elt Ideal))
    (x1 : (⟨S4096x4096, .f32⟩ : BufTy).Contents (Elt Ideal))
    (x2 x3 x4 : (⟨S4096, .f32⟩ : BufTy).Contents (Elt Ideal)) (n : Fin 8192) :
    val_main_v15 (F := Ideal) x0 x1 x2 x3 x4 (ix1 n) = ∑ o : Fin 4096, lin (flat x0) x1 x2 x3 x4 n o := by
  rw [val_main_v15_apply, val_main_cst_2_apply, Ideal.ofBits_def, Ideal.ofBits_zero_f32, zero_add]
  refine Finset.sum_congr rfl fun o _ => ?_
  have e : idx_main_v15 (ix1 n) o = ix2 n o :=
    funext fun a => by match a with | ⟨0, _⟩ => rfl | ⟨1, _⟩ => rfl
  rw [e, affine_at]

/-- The mean stage (a column: 8192 × 1) at row `n` is the specification's `μ n`. -/
theorem mean_at (x0 : (⟨S4x2048x4096, .f32⟩ : BufTy).Contents (Elt Ideal))
    (x1 : (⟨S4096x4096, .f32⟩ : BufTy).Contents (Elt Ideal))
    (x2 x3 x4 : (⟨S4096, .f32⟩ : BufTy).Contents (Elt Ideal)) (n : Fin 8192) (z : Fin 1) :
    val_main_v18 (F := Ideal) x0 x1 x2 x3 x4 (ix2 n z) = mean (lin (flat x0) x1 x2 x3 x4) n := by
  have e : idx_main_v16 (ix2 n z) = ix1 n := funext fun a => by match a with | ⟨0, _⟩ => rfl
  rw [val_main_v18_apply, val_main_v16_apply, e, rowsum_at, val_main_v17_apply, val_main_cst_3_apply]
  rfl

/-- The centred entry `H n o - μ n`, as the reference forms it for the variance … -/
theorem centred_at (x0 : (⟨S4x2048x4096, .f32⟩ : BufTy).Contents (Elt Ideal))
    (x1 : (⟨S4096x4096, .f32⟩ : BufTy).Contents (Elt Ideal))
    (x2 x3 x4 : (⟨S4096, .f32⟩ : BufTy).Contents (Elt Ideal)) (n : Fin 8192) (o : Fin 4096) :
    val_main_v20 (F := Ideal) x0 x1 x2 x3 x4 (ix2 n o) = lin (flat x0) x1 x2 x3 x4 n o - mean (lin (flat x0) x1 x2 x3 x4) n := by
  have e : idx_main_v19 (ix2 n o) = ix2 n (⟨0, Nat.one_pos⟩ : Fin 1) :=
    funext fun a => by match a with | ⟨0, _⟩ => rfl | ⟨1, _⟩ => rfl
  rw [val_main_v20_apply, affine_at, val_main_v19_apply, e, mean_at, Ideal.subf_def]

/-- … and as it forms it again for the quotient. -/
theorem centred'_at (x0 : (⟨S4x2048x4096, .f32⟩ : BufTy).Contents (Elt Ideal))
    (x1 : (⟨S4096x4096, .f32⟩ : BufTy).Contents (Elt Ideal))
    (x2 x3 x4 : (⟨S4096, .f32⟩ : BufTy).Contents (Elt Ideal)) (n : Fin 8192) (o : Fin 4096) :
    val_main_v27 (F := Ideal) x0 x1 x2 x3 x4 (ix2 n o) = lin (flat x0) x1 x2 x3 x4 n o - mean (lin (flat x0) x1 x2 x3 x4) n := by
  have e : idx_main_v26 (ix2 n o) = ix2 n (⟨0, Nat.one_pos⟩ : Fin 1) :=
    funext fun a => by match a with | ⟨0, _⟩ => rfl | ⟨1, _⟩ => rfl
  rw [val_main_v27_apply, affine_at, val_main_v26_apply, e, mean_at, Ideal.subf_def]

/-! ## The row's variance and the root -/

/-- The second row sum at `n`: the sum of the squares of the centred entries of the row. -/
theorem sqsum_at (x0 : (⟨S4x2048x4096, .f32⟩ : BufTy).Contents (Elt Ideal))
    (x1 : (⟨S4096x4096, .f32⟩ : BufTy).Contents (Elt Ideal))
    (x2 x3 x4 : (⟨S4096, .f32⟩ : BufTy).Contents (Elt Ideal)) (n : Fin 8192) :
    val_main_v22 (F := Ideal) x0 x1 x2 x3 x4 (ix1 n)
      = ∑ o : Fin 4096, (lin (flat x0) x1 x2 x3 x4 n o - mean (lin (flat x0) x1 x2 x3 x4) n) * (lin (flat x0) x1 x2 x3 x4 n o - mean (lin (flat x0) x1 x2 x3 x4) n) := by
  rw [val_main_v22_apply, val_main_cst_4_apply, Ideal.ofBits_def, Ideal.ofBits_zero_f32, zero_add]
  refine Finset.sum_congr rfl fun o _ => ?_
  have e : idx_main_v22 (ix1 n) o = ix2 n o :=
    funext fun a => by match a with | ⟨0, _⟩ => rfl | ⟨1, _⟩ => rfl
  rw [e, val_main_v21_apply, centred_at, Ideal.mulf_def]

/-- The variance stage (a column) at row `n` is the specification's `σ² n`. -/
theorem var_at (x0 : (⟨S4x2048x4096, .f32⟩ : BufTy).Contents (Elt Ideal))
    (x1 : (⟨S4096x4096, .f32⟩ : BufTy).Contents (Elt Ideal))
    (x2 x3 x4 : (⟨S4096, .f32⟩ : BufTy).Contents (Elt Ideal)) (n : Fin 8192) (z : Fin 1) :
    val_main_v25 (F := Ideal) x0 x1 x2 x3 x4 (ix2 n z) = var (lin (flat x0) x1 x2 x3 x4) n := by
  have e : idx_main_v23 (ix2 n z) = ix1 n := funext fun a => by match a with | ⟨0, _⟩ => rfl
  rw [val_main_v25_apply, val_main_v23_apply, e, sqsum_at, val_main_v24_apply, val_main_cst_5_apply]
  rfl

/-- The root stage, spread over the row, is `sqrt (σ² n + ε)`. -/
theorem root_at (x0 : (⟨S4x2048x4096, .f32⟩ : BufTy).Contents (Elt Ideal))
    (x1 : (⟨S4096x4096, .f32⟩ : BufTy).Contents (Elt Ideal))
    (x2 x3 x4 : (⟨S4096, .f32⟩ : BufTy).Contents (Elt Ideal)) (n : Fin 8192) (o : Fin 4096) :
    val_main_v31 (F := Ideal) x0 x1 x2 x3 x4 (ix2 n o) = Ideal.sqrt (var (lin (flat x0) x1 x2 x3 x4) n + epsW) := by
  have e : idx_main_v31 (ix2 n o) = ix2 n (⟨0, Nat.one_pos⟩ : Fin 1) :=
    funext fun a => by match a with | ⟨0, _⟩ => rfl | ⟨1, _⟩ => rfl
  rw [val_main_v31_apply, e, val_main_v30_apply, val_main_v29_apply, var_at, val_main_v28_apply,
    val_main_cst_6_apply, Ideal.hostUnary_sqrt_def, Ideal.addf_def, Ideal.ofBits_def]

/-! ## The result -/

/-- The reference's 8192 × 4096 stage (its value before the rows are folded back), index by index. -/
theorem stage_eq (x0 : (⟨S4x2048x4096, .f32⟩ : BufTy).Contents (Elt Ideal))
    (x1 : (⟨S4096x4096, .f32⟩ : BufTy).Contents (Elt Ideal))
    (x2 x3 x4 x5 x6 : (⟨S4096, .f32⟩ : BufTy).Contents (Elt Ideal)) :
    val_main_v38 (F := Ideal) x0 x1 x2 x3 x4 x5 x6 = out normDiv (flat x0) x1 x2 x3 x4 x5 x6 := by
  funext i
  obtain ⟨n, o, rfl⟩ : ∃ (n : Fin 8192) (o : Fin 4096), i = ix2 n o := ⟨i 0, i 1, eq_ix2 i⟩
  rw [out_apply, val_main_v38_apply, val_main_v35_apply, val_main_v32_apply, centred'_at, root_at, gain_at,
    shift_at]
  rfl

/-- The reference's result: the stage folded back. -/
theorem result_eq (x0 : (⟨S4x2048x4096, .f32⟩ : BufTy).Contents (Elt Ideal))
    (x1 : (⟨S4096x4096, .f32⟩ : BufTy).Contents (Elt Ideal))
    (x2 x3 x4 x5 x6 : (⟨S4096, .f32⟩ : BufTy).Contents (Elt Ideal)) :
    val_main_v39 (F := Ideal) x0 x1 x2 x3 x4 x5 x6 = unflat (out normDiv (flat x0) x1 x2 x3 x4 x5 x6) := by
  unfold val_main_v39
  rw [stage_eq]
  rfl

/-- The reference's run ends with its result at the specification's quotient form of its arguments,
    the arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39)
          = unflat (out normDiv (flat (m ((c.tc : Thread nD τ).loc main_arg0))) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c).1.trans (by rw [val_main_v39_eq, result_eq]), (h c).2⟩)
    (Cert.ReferenceIdeal.Value.run (F := Ideal) m ρ)

end Cert.ReferenceIdeal.RefValue

end
-- ==== Proof.Consts.lean ====
/-
  The float words the two programs spell, as the extended reals they denote: `+0.0` is `0`,
  `4096.0` is the real `4096`, `±1.0` are the reals `±1`, and the word of `1e-5` rounded to
  single precision is a POSITIVE real (its exact value, `10995116 / 2^40`, is never needed).
-/
import Idealize.ShloMosaic.PureOps.Ideal
import proofs.«110152_j80350248173700_2_alg».proof.Proof.Spec

noncomputable section

namespace Cert.SignLinearNorm

open Idealize.ShloMosaic

theorem zeroW_eq : zeroW = 0 := by
  simp [zeroW, Ideal.ofBits, Ideal.ieee]

theorem widthW_eq : widthW = ((4096 : ℝ) : EReal) := by
  simp [widthW, Ideal.ofBits, Ideal.ieee, -EReal.coe_mul]; norm_num

theorem oneW_eq : oneW = ((1 : ℝ) : EReal) := by
  simp [oneW, Ideal.ofBits, Ideal.ieee, -EReal.coe_mul]; norm_num

theorem negOneW_eq : negOneW = ((-1 : ℝ) : EReal) := by
  simp [negOneW, Ideal.ofBits, Ideal.ieee, -EReal.coe_mul]; norm_num

theorem epsW_eq : epsW = (((10995116 : ℝ) / 1099511627776 : ℝ) : EReal) := by
  simp [epsW, Ideal.ofBits, Ideal.ieee, -EReal.coe_mul]; norm_num

theorem epsW_pos : ∃ r : ℝ, 0 < r ∧ epsW = (r : EReal) :=
  ⟨(10995116 : ℝ) / 1099511627776, by norm_num, epsW_eq⟩

end Cert.SignLinearNorm

end
-- ==== Proof.LibERealSage.lean ====
import Mathlib.Data.EReal.Basic
import Mathlib.Data.EReal.Operations
import Mathlib.Data.EReal.Inv
import Mathlib.Algebra.BigOperators.Group.Finset.Basic
import Idealize.ShloMosaic.PureOps.Ideal
import Idealize.ShloMosaic.PureOps.Ideal.Laws

/-!
# Finite extended reals, and the algebra of a two-relation mean-aggregating graph layer

General lemmas over `EReal`.

* `IsReal x`: the extended real `x` is (the image of) a real number; closure under the ring
  operations, `max`, finite sums.
* Distributivity `x * (a + b) = x * a + x * b` holds on the finite extended reals (it fails at
  `x = ⊤, a = 1, b = -1`), hence `∑ X (A + B) = ∑ X A + ∑ X B` for finite families.
* Reassociations of the sums that make up one output entry of a layer whose node type has one,
  respectively two, incoming relations.
* Division by a nonzero real is the product with the quotient `1 / r`.
* Gathering from, and scatter-adding into, an everywhere finite array gives an everywhere finite
  array.
-/

namespace Cert.LibERealSage

open Idealize.ShloMosaic

/-! ### Finite extended reals -/

/-- An extended real is *real* (finite) when it is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two real extended reals is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real extended reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The negation of a real extended real is real. -/
theorem isReal_neg {x : EReal} (hx : IsReal x) : IsReal (-x) := by
  obtain ⟨a, rfl⟩ := hx
  exact ⟨-a, (EReal.coe_neg a).symm⟩

/-- The maximum of two real extended reals is real. -/
theorem isReal_max {x y : EReal} (hx : IsReal x) (hy : IsReal y) : IsReal (max x y) := by
  rcases le_total x y with h | h
  · rw [max_eq_right h]; exact hy
  · rw [max_eq_left h]; exact hx

/-- `max x 0` is real when `x` is. -/
theorem isReal_max_zero {x : EReal} (hx : IsReal x) : IsReal (max x 0) :=
  isReal_max hx isReal_zero

/-- A finite sum of real extended reals is real. -/
theorem isReal_sum {ι : Type*} (S : Finset ι) (f : ι → EReal) (h : ∀ i ∈ S, IsReal (f i)) :
    IsReal (∑ i ∈ S, f i) := by
  classical
  induction S using Finset.induction_on with
  | empty => simpa using isReal_zero
  | insert a s ha ih =>
    rw [Finset.sum_insert ha]
    exact isReal_add (h a (Finset.mem_insert_self a s))
      (ih (fun i hi => h i (Finset.mem_insert_of_mem hi)))

/-- A sum over a whole finite type of real extended reals is real. -/
theorem isReal_sum_univ {ι : Type*} [Fintype ι] (f : ι → EReal) (h : ∀ i, IsReal (f i)) :
    IsReal (∑ i, f i) :=
  isReal_sum Finset.univ f (fun i _ => h i)

/-- An extended real is real exactly when it is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    induction x using EReal.rec with
    | bot => exact absurd rfl h2
    | coe r => exact ⟨r, rfl⟩
    | top => exact absurd rfl h1

/-! ### Distributivity on the finite extended reals -/

/-- Multiplication distributes over addition when all three extended reals are real. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add,
    mul_add]

section Families

variable {ι : Type*} [Fintype ι]

/-- A contraction against a sum of two finite families is the sum of the two contractions, when
    the contracted family is finite too. -/
theorem sum_mul_add (X A B : ι → EReal) (hX : ∀ j, IsReal (X j)) (hA : ∀ j, IsReal (A j))
    (hB : ∀ j, IsReal (B j)) :
    ∑ j, X j * (A j + B j) = ∑ j, X j * A j + ∑ j, X j * B j := by
  rw [← Finset.sum_add_distrib]
  exact Finset.sum_congr rfl (fun j _ => mul_add_of_isReal (hX j) (hA j) (hB j))

/-- One output entry of a layer whose node type has ONE incoming relation: the neighbour term,
    the root term and the bias, summed in two different orders. No finiteness is needed. -/
theorem one_rel_entry (A W X R : ι → EReal) (β : EReal) :
    (((0 : EReal) + ∑ j, A j * W j) + ∑ j, X j * ((0 : EReal) + R j)) + ((0 : EReal) + β)
      = ((((0 : EReal) + ∑ j, A j * W j) + β) + ∑ j, X j * R j) := by
  simp only [zero_add]
  rw [add_right_comm]

/-- One output entry of a layer whose node type has TWO incoming relations: on one side the two
    neighbour terms, ONE root term against the sum of the two root matrices and the sum of the
    two biases; on the other side the two relations' (neighbour, bias, root) triples added in
    turn. Needs the root features and the two root matrices finite. -/
theorem two_rel_entry (A1 W1 A2 W2 X R1 R2 : ι → EReal) (β1 β2 : EReal)
    (hX : ∀ j, IsReal (X j)) (hR1 : ∀ j, IsReal (R1 j)) (hR2 : ∀ j, IsReal (R2 j)) :
    ((((0 : EReal) + ∑ j, A1 j * W1 j) + ∑ j, A2 j * W2 j)
        + ∑ j, X j * (((0 : EReal) + R1 j) + R2 j)) + (((0 : EReal) + β1) + β2)
      = ((((((0 : EReal) + ∑ j, A1 j * W1 j) + β1) + ∑ j, X j * R1 j) + ∑ j, A2 j * W2 j) + β2)
        + ∑ j, X j * R2 j := by
  simp only [zero_add]
  rw [sum_mul_add X R1 R2 hX hR1 hR2]
  ac_rfl

/-- `one_rel_entry` under `max · 0`. -/
theorem one_rel_entry_relu (A W X R : ι → EReal) (β : EReal) :
    max ((((0 : EReal) + ∑ j, A j * W j) + ∑ j, X j * ((0 : EReal) + R j)) + ((0 : EReal) + β)) 0
      = max ((((0 : EReal) + ∑ j, A j * W j) + β) + ∑ j, X j * R j) 0 :=
  congrArg (max · 0) (one_rel_entry A W X R β)

/-- `two_rel_entry` under `max · 0`. -/
theorem two_rel_entry_relu (A1 W1 A2 W2 X R1 R2 : ι → EReal) (β1 β2 : EReal)
    (hX : ∀ j, IsReal (X j)) (hR1 : ∀ j, IsReal (R1 j)) (hR2 : ∀ j, IsReal (R2 j)) :
    max (((((0 : EReal) + ∑ j, A1 j * W1 j) + ∑ j, A2 j * W2 j)
        + ∑ j, X j * (((0 : EReal) + R1 j) + R2 j)) + (((0 : EReal) + β1) + β2)) 0
      = max (((((((0 : EReal) + ∑ j, A1 j * W1 j) + β1) + ∑ j, X j * R1 j) + ∑ j, A2 j * W2 j) + β2)
        + ∑ j, X j * R2 j) 0 :=
  congrArg (max · 0) (two_rel_entry A1 W1 A2 W2 X R1 R2 β1 β2 hX hR1 hR2)

end Families

/-! ### Division by a nonzero real -/

/-- Division by a nonzero real is the product with the quotient `1 / r`, at the infinities
    too. -/
theorem div_eq_mul_one_div (s : EReal) {r : ℝ} (hr : r ≠ 0) :
    Idealize.ShloMosaic.Ideal.div s (r : EReal)
      = s * Idealize.ShloMosaic.Ideal.div 1 (r : EReal) := by
  rw [Ideal.div_coe hr, Ideal.div_coe hr, one_mul]

/-- The quotient `1 / r` by a nonzero real is real. -/
theorem isReal_div_one {r : ℝ} (hr : r ≠ 0) :
    IsReal (Idealize.ShloMosaic.Ideal.div 1 (r : EReal)) :=
  ⟨1 / r, by rw [Ideal.div_coe hr, one_mul]⟩

/-- The quotient of a real by a nonzero real is real. -/
theorem isReal_div {s : EReal} (hs : IsReal s) {r : ℝ} (hr : r ≠ 0) :
    IsReal (Idealize.ShloMosaic.Ideal.div s (r : EReal)) := by
  rw [Ideal.div_coe hr]
  exact isReal_mul hs (isReal_coe _)

/-- `max c 1` of a real `c` is a real number that is at least one. -/
theorem isReal_max_one' (c : EReal) (hc : IsReal c) :
    ∃ r : ℝ, 1 ≤ r ∧ max c 1 = (r : EReal) := by
  obtain ⟨a, rfl⟩ := hc
  refine ⟨max a 1, le_max_right a 1, ?_⟩
  rw [← EReal.coe_one]
  exact (EReal.coe_strictMono.monotone.map_max).symm

/-- `max c 1` of a real `c` is a nonzero real number. -/
theorem isReal_max_one (c : EReal) (hc : IsReal c) :
    ∃ r : ℝ, r ≠ 0 ∧ max c 1 = (r : EReal) := by
  obtain ⟨r, h1, h⟩ := isReal_max_one' c hc
  exact ⟨r, by linarith, h⟩

/-! ### Finiteness through a gather and an accumulating scatter -/

/-- Every element of a gather from an everywhere real array is real. -/
theorem isReal_gather {s si t : Shape} {w : Nat} (d : GatherDims s si t) (x : s.Idx → EReal)
    (idx : IVec si w) (hx : ∀ i, IsReal (x i)) :
    ∀ j, IsReal (Host.gather (α := EReal) d x idx j) :=
  fun j => hx (d.operandIdx j idx)

/-- Every element of an accumulating scatter of everywhere real updates into an everywhere real
    array is real. -/
theorem isReal_scatterAdd {φ : FTy} {s si u : Shape} {w : Nat} (d : ScatterDims s si u)
    (x : FVec Ideal s φ) (idx : IVec si w) (upd : FVec Ideal u φ)
    (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact isReal_add (hx i) (isReal_sum _ _ (fun j _ => hu j))

end Cert.LibERealSage
-- ==== Proof.NormLaw.lean ====
/-
  The two normalisations agree on finite data.

  For a positive real `v`, `rsqrt v` is the real `(√v)⁻¹` and `sqrt v` the nonzero real `√v`, so
  `a · rsqrt v = a / sqrt v` for EVERY extended real `a` (`normMul_eq_normDiv`).  When the
  activations, both scales and the bias are finite, each `H n o` is a finite sum of products of
  reals (the sign is `±1`), hence real; so is the mean; the variance is a sum of squares of
  reals divided by `4096`, a nonnegative real; and `ε` is a positive real.  So the variance plus
  `ε` is a positive real and the two result arrays coincide (`out_mul_eq_out_div`).
-/
import proofs.«110152_j80350248173700_2_alg».proof.Proof.Spec
import proofs.«110152_j80350248173700_2_alg».proof.Proof.Consts
import proofs.«110152_j80350248173700_2_alg».proof.Proof.LibERealSage

noncomputable section

open scoped BigOperators

namespace Cert.SignLinearNorm

open Idealize.ShloMosaic Idealize.ShloMosaic.ValueIdx Cert.LibERealSage

/-- On a positive real the product with the reciprocal square root is the quotient by the square root. -/
theorem normMul_eq_normDiv (a : EReal) {r : ℝ} (hr : 0 < r) :
    normMul a (r : EReal) = normDiv a (r : EReal) := by
  have hs : Real.sqrt r ≠ 0 := (Real.sqrt_pos.mpr hr).ne'
  have hneg : ¬ r < 0 := not_lt.mpr hr.le
  unfold normMul normDiv
  rw [Ideal.rsqrt_coe, Ideal.sqrt_coe, if_neg hneg, if_neg hr.ne', if_neg hneg, Ideal.div_coe hs,
    one_div]

/-- The sign is a real number, whatever the weight. -/
theorem isReal_sgn (w : EReal) : IsReal (sgn w) := by
  unfold sgn Scalar.select
  by_cases h : Ideal.cmp .oge w zeroW = 1
  · rw [if_pos h, oneW_eq]; exact isReal_coe _
  · rw [if_neg h, negOneW_eq]; exact isReal_coe _

/-- A finite sum of real numbers, each read as an extended real, is the real sum read as an
    extended real. -/
private theorem coe_finsum {ι : Type*} (S : Finset ι) (f : ι → ℝ) :
    ∑ i ∈ S, ((f i : ℝ) : EReal) = ((∑ i ∈ S, f i : ℝ) : EReal) := by
  classical
  induction S using Finset.induction_on with
  | empty => simp
  | insert a s ha ih => rw [Finset.sum_insert ha, Finset.sum_insert ha, ih, EReal.coe_add]

/-- Every entry of the affine layer is real when the activations, both scales and the bias are:
    it is a finite sum of products of reals (the sign is real), times a real, plus a real. -/
private theorem isReal_lin (X : Rows.Idx → EReal) (W : Wts.Idx → EReal) (sin sout b : Chan.Idx → EReal)
    (hX : ∀ i, IsReal (X i)) (hsin : ∀ i, IsReal (sin i)) (hsout : ∀ i, IsReal (sout i))
    (hb : ∀ i, IsReal (b i)) (n : Fin 8192) (o : Fin 4096) : IsReal (lin X W sin sout b n o) := by
  unfold lin
  exact isReal_add
    (isReal_mul
      (isReal_sum_univ _ (fun d => isReal_mul (isReal_mul (hX _) (hsin _)) (isReal_sgn _)))
      (hsout _))
    (hb _)

/-- The mean of a row of reals is real: a finite sum of reals divided by the real 4096. -/
private theorem isReal_mean (H : Fin 8192 → Fin 4096 → EReal) (n : Fin 8192) (hH : ∀ o, IsReal (H n o)) :
    IsReal (mean H n) := by
  unfold mean
  rw [widthW_eq]
  exact isReal_div (isReal_sum_univ _ hH) (by norm_num)

/-- On a row of reals the variance plus ε is a POSITIVE real: with the row the reals h o and
    its mean the real μ, the variance is the real sum of the squares (h o - μ)², which is
    nonnegative, times 1/4096; and ε is a positive real. -/
private theorem var_add_eps_pos (H : Fin 8192 → Fin 4096 → EReal) (n : Fin 8192)
    (hH : ∀ o, IsReal (H n o)) : ∃ r : ℝ, 0 < r ∧ var H n + epsW = (r : EReal) := by
  have h4096 : (4096 : ℝ) ≠ 0 := by norm_num
  obtain ⟨μ, hμ⟩ := isReal_mean H n hH
  choose h hh using hH
  obtain ⟨e, he, hε⟩ := epsW_pos
  have hsq : ∀ o : Fin 4096, (H n o - mean H n) * (H n o - mean H n)
      = (((h o - μ) * (h o - μ) : ℝ) : EReal) := by
    intro o
    rw [hh o, hμ, ← EReal.coe_sub, ← EReal.coe_mul]
  have hS : 0 ≤ ∑ o : Fin 4096, (h o - μ) * (h o - μ) :=
    Finset.sum_nonneg (fun o _ => mul_self_nonneg _)
  refine ⟨(∑ o : Fin 4096, (h o - μ) * (h o - μ)) * (1 / 4096) + e, ?_, ?_⟩
  · have : 0 ≤ (∑ o : Fin 4096, (h o - μ) * (h o - μ)) * (1 / 4096) :=
      mul_nonneg hS (by norm_num)
    linarith
  · unfold var
    rw [widthW_eq, Ideal.div_coe h4096, hε, Finset.sum_congr rfl (fun o _ => hsq o), coe_finsum,
      ← EReal.coe_mul, ← EReal.coe_add]

/-- On finite activations, scales and bias the two result arrays are equal. -/
theorem out_mul_eq_out_div (X : Rows.Idx → EReal) (W : Wts.Idx → EReal) (sin sout b g β : Chan.Idx → EReal)
    (hX : ∀ i, IsReal (X i)) (hsin : ∀ i, IsReal (sin i)) (hsout : ∀ i, IsReal (sout i))
    (hb : ∀ i, IsReal (b i)) :
    out normMul X W sin sout b g β = out normDiv X W sin sout b g β := by
  funext j
  obtain ⟨r, hr, hv⟩ := var_add_eps_pos (lin X W sin sout b) (j 0)
    (fun o => isReal_lin X W sin sout b hX hsin hsout hb (j 0) o)
  unfold out normed
  rw [hv, normMul_eq_normDiv _ hr]

end Cert.SignLinearNorm

end
-- ==== Proof.Finite.lean ====
/-
  What the precondition says: every entry of every argument array is a real number.

  The precondition is the conjunction, over the seven arguments, of "the absolute value of every
  entry is below `+∞`", each conjunct an `and`-reduction over the whole array.  An extended real
  whose absolute value is below `+∞` is neither infinity, that is, it is a real number.
-/
import proofs.«110152_j80350248173700_2_alg».proof.Pre_finite_inputs
import proofs.«110152_j80350248173700_2_alg».proof.Proof.LibERealSage
import Idealize.ShloMosaic.PureOps.Ideal
import Idealize.ShloMosaic.Lib.ValueIdx
import Idealize.ShloMosaic.Lib.ReduceAll

noncomputable section

namespace Cert.SignLinearNorm

open Idealize.ShloMosaic Idealize.ShloMosaic.ValueIdx Cert.LibERealSage Cert.Pre_finite_inputs

/-- An extended real whose absolute value `max x (-x)` is below `⊤` is a real number: at `⊥` the
    negation is `⊤`, at `⊤` the number itself is, and in both cases the maximum is `⊤`. -/
theorem isReal_of_abs_lt_top (x : EReal) (h : max x (-x) < ⊤) : IsReal x := by
  induction x using EReal.rec with
  | bot => simp at h
  | coe r => exact ⟨r, rfl⟩
  | top => simp at h

/-- The single-precision word with exponent all ones and significand zero denotes `+∞`. -/
theorem posInfWord_eq_top : Ideal.ofBits .f32 0x7F800000#32 = (⊤ : EReal) := by
  simp [Ideal.ofBits, Ideal.ieee]

/-- The one-bit word of a truth value is 1 exactly when the truth value is `true`. -/
theorem ofBool_eq_one_iff {b : Bool} : BitVec.ofBool b = 1#1 ↔ b = true := by
  cases b <;> decide

/-- One conjunct of the precondition, over an array of any shape: if the `and` of the bits
    "`|x i| < +∞`" over all indices `i` is 1, every entry of `x` is a real number.  The reduction
    runs over all axes into a result with a single index, so each bit is 1; the bit at `i` is the
    comparison `max (x i) (-(x i)) < ⊤` over the extended reals. -/
theorem isReal_of_all_abs_lt {s : Shape} {axes : List (Fin s.rank)} (x : FVec Ideal s .f32)
    (hb : S_.BroadcastsInDim s (![] : Fin 0 → Fin s.rank)) (hr : s.ReducesTo axes S_)
    (hu : 0 < S_.numel)
    (e : Host.reduce IntOp.andi
        (cmpf .olt (Host.absf x) (broadcastInDim s ![] hb (constant S_ .f32 0x7F800000#32)))
        (constantI S_ 1 1#1) hr hu ix0 = 1#1) (i : s.Idx) : IsReal (x i) := by
  haveI : Subsingleton S_.Idx := ⟨fun a b => funext fun d => d.elim0⟩
  have h1 := Host.reduce_andi_all _ _ hr hu ix0 e i
  have h2 : Ideal.cmp .olt (max (x i) (-(x i))) (Ideal.ofBits .f32 0x7F800000#32) = 1#1 := h1
  rw [posInfWord_eq_top] at h2
  apply isReal_of_abs_lt_top
  simpa [Ideal.cmp, ofBool_eq_one_iff] using h2

/-- The precondition at `Ideal` makes every entry of every argument a real number. -/
theorem isReal_of_pre [Cert.Pre_finite_inputs.Facts]
    (a0 : FVec Ideal S4x2048x4096 .f32) (a1 : FVec Ideal S4096x4096 .f32)
    (a2 a3 a4 a5 a6 : FVec Ideal S4096 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) := by
  -- the value of the precondition at its only index: a left-nested `and` of seven bits
  have h0 := congrFun h ix0
  dsimp only [Cert.Pre_finite_inputs.fn, Cert.Pre_finite_inputs.fn_part1, andi] at h0
  -- an `and` of two bits is 1 exactly when both are: peel the conjuncts off from the last
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all_abs_lt a0 _ _ _ e0, isReal_of_all_abs_lt a1 _ _ _ e1,
    isReal_of_all_abs_lt a2 _ _ _ e2, isReal_of_all_abs_lt a3 _ _ _ e3,
    isReal_of_all_abs_lt a4 _ _ _ e4, isReal_of_all_abs_lt a5 _ _ _ e5,
    isReal_of_all_abs_lt a6 _ _ _ e6⟩

end Cert.SignLinearNorm

end
-- ==== Proof.lean ====
/-
  The certificate of a sign-binarised linear layer followed by layer normalisation.

  The kernel holds the sign matrix of the weights in scratch, rebuilt once per core, and on each
  block of 256 rows computes  H = ((x · s_in) · sgn(W)ᵀ) · s_out + b,  subtracts the row mean and
  MULTIPLIES by the reciprocal square root of the row variance plus ε, then scales and shifts.
  The reference does the same on all 8192 rows at once but DIVIDES by the square root.  Over the
  extended reals both are one function of the flattened activations up to that last step
  (the kernel's `out normMul`, the reference's `out normDiv`), and the two agree where the
  variance plus ε is a positive real, which finite inputs guarantee.

  The three frames: the two kernels' are their frame certificates, the reference's is its run
  with the result dropped.  The idealization rewrote nothing.  The algebraic claim: the kernel's
  run ends at `unflat (out normMul …)`, the reference's at `unflat (out normDiv …)` of arguments
  that agree, and the precondition makes every entry of every argument a real number.
-/
import proofs.«110152_j80350248173700_2_alg».proof.Defs
import proofs.«110152_j80350248173700_2_alg».proof.Proof.Gen.Kernel
import proofs.«110152_j80350248173700_2_alg».proof.Proof.Gen.KernelIdeal
import proofs.«110152_j80350248173700_2_alg».proof.Proof.KernelFrame
import proofs.«110152_j80350248173700_2_alg».proof.Proof.KernelIdealFrame
import proofs.«110152_j80350248173700_2_alg».proof.Proof.Gen.ReferenceIdeal
import proofs.«110152_j80350248173700_2_alg».proof.Proof.Gen.ReferenceIdeal.Run
import proofs.«110152_j80350248173700_2_alg».proof.Proof.Gen.Pre_finite_inputs
import proofs.«110152_j80350248173700_2_alg».proof.Proof.KValue
import proofs.«110152_j80350248173700_2_alg».proof.Proof.RefValue
import proofs.«110152_j80350248173700_2_alg».proof.Proof.NormLaw
import proofs.«110152_j80350248173700_2_alg».proof.Proof.Finite
import Idealize.ShloMosaic.Adequacy
import Idealize.ShloMosaic.Init

noncomputable section

namespace Cert.Proof

open Idealize.ShloMosaic Idealize.ShloMosaic.TcCoe Idealize.SL.Sem Cert.SignLinearNorm Cert.LibERealSage

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Flattening only moves entries: a flattened array of reals is an array of reals. -/
theorem isReal_flat (x : Act.Idx → EReal) (hx : ∀ i, IsReal (x i)) (j : Rows.Idx) : IsReal (flat x j) := by
  unfold flat shapeCast
  exact hx _

theorem algebraic : Cert.algebraic_KernelIdeal_ReferenceIdeal := by
  intro m ρ m' ρ' hpre hagree
  refine ⟨fun c => unflat (out normMul (flat (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    Cert.KernelIdeal.KValue.run_out m ρ, ?_⟩
  refine (θ_run Cert.ReferenceIdeal.defs _ _).mono (fun _ h c => ⟨(h c).1.trans ?_, (h c).2⟩)
    (Cert.ReferenceIdeal.RefValue.run_out m' ρ')
  obtain ⟨h0, h1, h2, h3, h4, h5, h6⟩ := hagree c
  rw [h0, h1, h2, h3, h4, h5, h6]
  obtain ⟨r0, r1, r2, r3, r4, r5, r6⟩ := isReal_of_pre _ _ _ _ _ _ _ (hpre c)
  exact congrArg unflat (out_mul_eq_out_div _ _ _ _ _ _ _ (isReal_flat _ r0) r2 r3 r4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
